-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S65536x1024 : Shape := ⟨2, ![65536, 1024]⟩
abbrev S64x1024 : Shape := ⟨2, ![64, 1024]⟩
abbrev S8x64 : Shape := ⟨2, ![8, 64]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : IVec S65536 32) (main_arg1 : FVec F S65536x1024 .f32) (main_arg2 : FVec F S64x1024 .f32) (main_arg3 : IVec S8x64 32) : IVec S_ 1 :=
  let main_v0 : FVec F S65536x1024 .f32 := Host.absf main_arg1
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S64x1024 .f32 := Host.absf main_arg2
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S65536 : Shape := ⟨1, ![65536]⟩
abbrev S65536x1024 : Shape := ⟨2, ![65536, 1024]⟩
abbrev S64x1024 : Shape := ⟨2, ![64, 1024]⟩
abbrev S8x64 : Shape := ⟨2, ![8, 64]⟩
abbrev S_ : Shape := ⟨0, ![]⟩
abbrev S1 : Shape := ⟨1, ![1]⟩
abbrev S1x1024 : Shape := ⟨2, ![1, 1024]⟩
abbrev S1x64 : Shape := ⟨2, ![1, 64]⟩
abbrev S64 : Shape := ⟨1, ![64]⟩
abbrev S1024x64 : Shape := ⟨2, ![1024, 64]⟩
abbrev S1x1 : Shape := ⟨2, ![1, 1]⟩

abbrev nBuf : Space → Nat
  | .hbm => 60
  | .vmem => 4
  | .smem => 0
  | _ => 0

abbrev bufTy : (tb : Table) → Fin (tcTables nBuf tb) → BufTy
  | .hbm, ⟨0, _⟩ => ⟨S65536, .i32⟩
  | .hbm, ⟨1, _⟩ => ⟨S65536x1024, .f32⟩
  | .hbm, ⟨2, _⟩ => ⟨S64x1024, .f32⟩
  | .hbm, ⟨3, _⟩ => ⟨S8x64, .i32⟩
  | .hbm, ⟨4, _⟩ => ⟨S_, .i32⟩
  | .hbm, ⟨5, _⟩ => ⟨S65536, .i32⟩
  | .hbm, ⟨6, _⟩ => ⟨S65536, .i1⟩
  | .hbm, ⟨7, _⟩ => ⟨S_, .i1⟩
  | .hbm, ⟨8, _⟩ => ⟨S_, .i1⟩
  | .hbm, ⟨9, _⟩ => ⟨S65536, .i1⟩
  | .hbm, ⟨10, _⟩ => ⟨S65536, .i32⟩
  | .hbm, ⟨11, _⟩ => ⟨S_, .i1⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x1024, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x64, .i32⟩
  | .hbm, ⟨45, _⟩ => ⟨S64, .i32⟩
  | .hbm, ⟨46, _⟩ => ⟨S_, .i32⟩
  | .hbm, ⟨47, _⟩ => ⟨S64, .i32⟩
  | .hbm, ⟨48, _⟩ => ⟨S64, .i1⟩
  | .hbm, ⟨49, _⟩ => ⟨S64, .f32⟩
  | .hbm, ⟨50, _⟩ => ⟨S1x64, .f32⟩
  | .hbm, ⟨51, _⟩ => ⟨S1024x64, .f32⟩
  | .hbm, ⟨52, _⟩ => ⟨S1024x64, .bf16⟩
  | .hbm, ⟨53, _⟩ => ⟨S1x1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S1x1024, .f32⟩
  | .local _ .vmem, ⟨1, _⟩ => ⟨S1024x64, .bf16⟩
  | .local _ .vmem, ⟨2, _⟩ => ⟨S1x64, .f32⟩
  | .local _ .vmem, ⟨3, _⟩ => ⟨S1x1, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_c : Ref sig .tc := ⟨.hbm, 11, rfl⟩
abbrev main_call0_c_0 : Ref sig .tc := ⟨.hbm, 12, rfl⟩
abbrev main_call0_v1_0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_c_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_v11 : Ref sig .tc := ⟨.hbm, 25, rfl⟩
abbrev main_c_5 : Ref sig .tc := ⟨.hbm, 26, rfl⟩
abbrev main_v12 : Ref sig .tc := ⟨.hbm, 27, rfl⟩
abbrev main_v13 : Ref sig .tc := ⟨.hbm, 28, rfl⟩
abbrev main_c_6 : Ref sig .tc := ⟨.hbm, 29, rfl⟩
abbrev main_v14 : Ref sig .tc := ⟨.hbm, 30, rfl⟩
abbrev main_c_7 : Ref sig .tc := ⟨.hbm, 31, rfl⟩
abbrev main_v15 : Ref sig .tc := ⟨.hbm, 32, rfl⟩
abbrev main_c_8 : Ref sig .tc := ⟨.hbm, 33, rfl⟩
abbrev main_v16 : Ref sig .tc := ⟨.hbm, 34, rfl⟩
abbrev main_v17 : Ref sig .tc := ⟨.hbm, 35, rfl⟩
abbrev main_c_9 : Ref sig .tc := ⟨.hbm, 36, rfl⟩
abbrev main_c_10 : Ref sig .tc := ⟨.hbm, 37, rfl⟩
abbrev main_v18 : Ref sig .tc := ⟨.hbm, 38, rfl⟩
abbrev main_c_11 : Ref sig .tc := ⟨.hbm, 39, rfl⟩
abbrev main_c_12 : Ref sig .tc := ⟨.hbm, 40, rfl⟩
abbrev main_v19 : Ref sig .tc := ⟨.hbm, 41, rfl⟩
abbrev main_c_13 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_14 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst : Ref sig .tc := ⟨.hbm, 55, rfl⟩
abbrev main_v31 : Ref sig .tc := ⟨.hbm, 56, rfl⟩
abbrev main_cst_15 : Ref sig .tc := ⟨.hbm, 57, rfl⟩
abbrev main_call1_v0 : Ref sig .tc := ⟨.hbm, 58, rfl⟩
abbrev main_v32 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S65536 : S_.BroadcastsInDim S65536 (![] : Fin 0 → Fin S65536.rank)
  reducesTo_S65536_S_d0 : S65536.ReducesTo [0] S_
  h_S_ : 0 < S_.numel
  sliceFits_S65536_S1 : S65536.Slices (fun _ => 0) S1
  shapeCasts_S1_S_ : S1.ShapeCasts S_
  sliceFits_S65536x1024_S1x1024 : S65536x1024.Slices (fun _ => 0) S1x1024
  sliceFits_S8x64_S1x64 : S8x64.Slices (fun _ => 0) S1x64
  shapeCasts_S1x64_S64 : S1x64.ShapeCasts S64
  bcast_S_S64 : S_.BroadcastsInDim S64 (![] : Fin 0 → Fin S64.rank)
  shapeCasts_S64_S1x64 : S64.ShapeCasts S1x64
  transposes_S64x1024_S1024x64_1_0 : S64x1024.Transposes [1, 0] S1024x64
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S1x64_S1 : S1x64.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S1x1024_S1024x64_S1x64_1_0_0_1_n_n_wf : DotDims.WF S1x1024 S1024x64 S1x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .bf16 = 32 ∨ (Rect.block (s := S1024x64) S1024x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S1x1024_S1024x64_S1x64_1_0_0_1_n_n : DotDims S1x1024 S1024x64 S1x64 where
  lhsContracting := [1]
  rhsContracting := [0]
  lhsNonContracting := [0]
  rhsNonContracting := [1]
  lhsBatch := []
  rhsBatch := []
  wf := dot_S1x1024_S1024x64_S1x64_1_0_0_1_n_n_wf

abbrev win0_0 : Pipeline.Window sig grid0 :=
  Pipeline.Window.ofSpec (Memref.whole main_v14) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536 : Shape := ⟨1, ![65536]⟩
abbrev S65536x1024 : Shape := ⟨2, ![65536, 1024]⟩
abbrev S64x1024 : Shape := ⟨2, ![64, 1024]⟩
abbrev S8x64 : Shape := ⟨2, ![8, 64]⟩
abbrev S65536x64 : Shape := ⟨2, ![65536, 64]⟩
abbrev S_ : Shape := ⟨0, ![]⟩
abbrev S65536x1 : Shape := ⟨2, ![65536, 1]⟩
abbrev S1 : Shape := ⟨1, ![1]⟩

abbrev nBuf : Space → Nat
  | .hbm => 66
  | .vmem => 0
  | .smem => 0
  | _ => 0

abbrev bufTy : (tb : Table) → Fin (tcTables nBuf tb) → BufTy
  | .hbm, ⟨0, _⟩ => ⟨S65536, .i32⟩
  | .hbm, ⟨1, _⟩ => ⟨S65536x1024, .f32⟩
  | .hbm, ⟨2, _⟩ => ⟨S64x1024, .f32⟩
  | .hbm, ⟨3, _⟩ => ⟨S8x64, .i32⟩
  | .hbm, ⟨4, _⟩ => ⟨S65536x64, .f32⟩
  | .hbm, ⟨5, _⟩ => ⟨S_, .f32⟩
  | .hbm, ⟨6, _⟩ => ⟨S65536x64, .f32⟩
  | .hbm, ⟨7, _⟩ => ⟨S65536x64, .f32⟩
  | .hbm, ⟨8, _⟩ => ⟨S_, .i32⟩
  | .hbm, ⟨9, _⟩ => ⟨S65536, .i32⟩
  | .hbm, ⟨10, _⟩ => ⟨S65536, .i1⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S65536, .i32⟩
  | .hbm, ⟨15, _⟩ => ⟨S65536x1, .i32⟩
  | .hbm, ⟨16, _⟩ => ⟨S65536x64, .i32⟩
  | .hbm, ⟨17, _⟩ => ⟨S_, .i32⟩
  | .hbm, ⟨18, _⟩ => ⟨S65536x64, .i32⟩
  | .hbm, ⟨19, _⟩ => ⟨S65536x64, .i1⟩
  | .hbm, ⟨20, _⟩ => ⟨S65536x64, .f32⟩
  | .hbm, ⟨21, _⟩ => ⟨S_, .f32⟩
  | .hbm, ⟨22, _⟩ => ⟨S_, .f32⟩
  | .hbm, ⟨23, _⟩ => ⟨S65536x64, .f32⟩
  | .hbm, ⟨24, _⟩ => ⟨S65536x64, .f32⟩
  | .hbm, ⟨25, _⟩ => ⟨S_, .f32⟩
  | .hbm, ⟨26, _⟩ => ⟨S65536, .f32⟩
  | .hbm, ⟨27, _⟩ => ⟨S65536, .f32⟩
  | .hbm, ⟨28, _⟩ => ⟨S65536x64, .i32⟩
  | .hbm, ⟨29, _⟩ => ⟨S_, .i32⟩
  | .hbm, ⟨30, _⟩ => ⟨S65536, .i32⟩
  | .hbm, ⟨31, _⟩ => ⟨S65536, .f32⟩
  | .hbm, ⟨32, _⟩ => ⟨S_, .f32⟩
  | .hbm, ⟨33, _⟩ => ⟨S_, .f32⟩
  | .hbm, ⟨34, _⟩ => ⟨S65536x64, .f32⟩
  | .hbm, ⟨35, _⟩ => ⟨S65536x64, .f32⟩
  | .hbm, ⟨36, _⟩ => ⟨S_, .f32⟩
  | .hbm, ⟨37, _⟩ => ⟨S65536, .f32⟩
  | .hbm, ⟨38, _⟩ => ⟨S65536, .f32⟩
  | .hbm, ⟨39, _⟩ => ⟨S65536, .f32⟩
  | .hbm, ⟨40, _⟩ => ⟨S65536, .f32⟩
  | .hbm, ⟨41, _⟩ => ⟨S_, .i32⟩
  | .hbm, ⟨42, _⟩ => ⟨S65536, .i32⟩
  | .hbm, ⟨43, _⟩ => ⟨S65536, .i1⟩
  | .hbm, ⟨44, _⟩ => ⟨S65536, .i1⟩
  | .hbm, ⟨45, _⟩ => ⟨S65536, .i32⟩
  | .hbm, ⟨46, _⟩ => ⟨S_, .i1⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i1⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call2_v0 : Ref sig .tc := ⟨.hbm, 45, rfl⟩
abbrev main_call2_c : Ref sig .tc := ⟨.hbm, 46, rfl⟩
abbrev main_call2_c_0 : Ref sig .tc := ⟨.hbm, 47, rfl⟩
abbrev main_call2_v1_0 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_c_9 : Ref sig .tc := ⟨.hbm, 52, rfl⟩
abbrev main_v29 : Ref sig .tc := ⟨.hbm, 53, rfl⟩
abbrev main_c_10 : Ref sig .tc := ⟨.hbm, 54, rfl⟩
abbrev main_v30 : Ref sig .tc := ⟨.hbm, 55, rfl⟩
abbrev main_c_11 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_12 : Ref sig .tc := ⟨.hbm, 61, rfl⟩
abbrev main_v35 : Ref sig .tc := ⟨.hbm, 62, rfl⟩
abbrev main_cst_13 : Ref sig .tc := ⟨.hbm, 63, rfl⟩
abbrev main_call3_v0 : Ref sig .tc := ⟨.hbm, 64, rfl⟩
abbrev main_v36 : Ref sig .tc := ⟨.hbm, 65, rfl⟩

abbrev nD : Nat := 1
abbrev τ : Topo := Topo.v7x

variable {F : FTy → Type} [FloatOps F]

class Facts₀ : Prop where
  bcast_S_S65536x64 : S_.BroadcastsInDim S65536x64 (![] : Fin 0 → Fin S65536x64.rank)
  bcast_S_S65536 : S_.BroadcastsInDim S65536 (![] : Fin 0 → Fin S65536.rank)
  bcast_S65536_S65536x1_0 : S65536.BroadcastsInDim S65536x1 (![0] : Fin 1 → Fin S65536x1.rank)
  reducesTo_S65536x64_S65536_d1 : S65536x64.ReducesTo [1] S65536
  h_S_ : 0 < S_.numel
  natLt_1_32 : 1 < 32
  reducesTo_S65536_S_d0 : S65536.ReducesTo [0] S_
  sliceFits_S65536_S1 : S65536.Slices (fun _ => 0) S1
  shapeCasts_S1_S_ : S1.ShapeCasts S_
  dot_S65536x1024_S64x1024_S65536x64_1_1_0_0_n_n_wf : DotDims.WF S65536x1024 S64x1024 S65536x64 [1] [1] [0] [0] [] []
  gather_S8x64_S65536x1_S65536x64_1_0_n_n_0_1_164_wf : GatherDims.WF S8x64 S65536x1 S65536x64 [1] [0] [] [0] [] 1 ![1, 64]

variable [Facts₀]

def dot_S65536x1024_S64x1024_S65536x64_1_1_0_0_n_n : DotDims S65536x1024 S64x1024 S65536x64 where
  lhsContracting := [1]
  rhsContracting := [1]
  lhsNonContracting := [0]
  rhsNonContracting := [0]
  lhsBatch := []
  rhsBatch := []
  wf := dot_S65536x1024_S64x1024_S65536x64_1_1_0_0_n_n_wf
def gather_S8x64_S65536x1_S65536x64_1_0_n_n_0_1_164 : GatherDims S8x64 S65536x1 S65536x64 where
  offsetDims := [1]
  collapsedSliceDims := [0]
  operandBatchingDims := []
  startIndicesBatchingDims := []
  startIndexMap := [0]
  indexVectorDim := 1
  sliceSizes := ![1, 64]
  wf := gather_S8x64_S65536x1_S65536x64_1_0_n_n_0_1_164_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

class Facts : Prop extends Facts₀ where

variable [Facts]
-- ==== Proof.KFrame.lean ====
/- The frame of the program: its entry function is three stretches of host operations, one kernel launch on a
   one-point grid, and two stretches of host operations. The host operations before the launch compute the index of
   the last nonzero label, slice that label, that row of the features and the label's mask row, and transpose the
   table; the kernel reads three whole blocks and writes one scalar block; the operations after the launch scale the
   scalar and select it. Here: the contents each buffer holds when the launch is entered (the fold of the operations
   before it over the launch memory), that no operation writes an argument array, what the kernel body leaves in its
   output block as a function of its three input blocks, and the run of the whole entry function to a state in which
   the four staged arrays hold what the blocks' write-back gives and every other buffer what the trailing operations
   compute from them. -/
import proofs.«404133_j52647709114635_2_alg».proof.Proof.Gen.Kernel.Launch
import proofs.«404133_j52647709114635_2_alg».proof.Proof.Gen.Kernel.Skeleton
import proofs.«404133_j52647709114635_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the launch -/

/-- What core `c`'s buffers hold when the launch is entered: the operations before it folded over the launch memory. -/
abbrev V0 (c : Dev nD) : Valuation τ sig (Elt F) :=
  StableHlo.after (List.flatten [hostOps0, hostOps0_1, hostOps0_2]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- The entry function reduces to the launch continued by the two trailing stretches, at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0, hostOps0_1, hostOps0_2] [hostOps1, hostOps1_1]
    (by simp only [List.Forall]; exact ⟨hostOps0_sub, hostOps0_1_sub, hostOps0_2_sub⟩)
    (by simp only [List.Forall]; exact ⟨hostOps0_fresh, hostOps0_1_fresh, hostOps0_2_fresh⟩) main_chain

/-- The trailing operations touch only staged arrays and buffers that bypass the launch, -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- allocate nothing, -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- and write no staged array: each writes its own result buffer. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)
  · simp only [hostOps1_1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

set_option maxHeartbeats 1000000 in
/-- No operation before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
/-- No operation after the launch writes argument 0, and it is no staged array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
set_option maxHeartbeats 1000000 in
/-- No operation before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
/-- No operation after the launch writes argument 1, and it is no staged array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
set_option maxHeartbeats 1000000 in
/-- No operation before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
/-- No operation after the launch writes argument 2, and it is no staged array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
set_option maxHeartbeats 1000000 in
/-- No operation before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
/-- No operation after the launch writes argument 3, and it is no staged array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The blocks -/

/-- Window `w`'s block at the grid point, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block when the body runs, for any proof data over `V` whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block when the body runs, for any proof data over `V` whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block when the body runs, for any proof data over `V` whose body leaves
    the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run to the library's post over the trailing operations: each argument array is staged by no window, so it
    ends at what the trailing operations leave, which is what it was launched with. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The kernel body -/

abbrev rRow : Rect S1x1024 := Rect.unit (s := S1x1024) ![0, 0] S1x1024.size inb_S1x1024_S1x1024_0_0
abbrev rTab : Rect S1024x64 := Rect.unit (s := S1024x64) ![0, 0] S1024x64.size inb_S1024x64_S1024x64_0_0
abbrev rMask : Rect S1x64 := Rect.unit (s := S1x64) ![0, 0] S1x64.size inb_S1x64_S1x64_0_0
abbrev rOut : Rect S1x1 := Rect.unit (s := S1x1) ![0, 0] S1x1.size inb_S1x1_S1x1_0_0

/-- What the body leaves in the output block: its one store, of the payload of the three loaded blocks. -/
def outBlk (x0 : Vec F S1x1024 .f32) (x1 : Vec F S1024x64 .bf16) (x2 : Vec F S1x64 .f32) : Vec F S1x1 .f32 :=
  View.canon [⟨rOut, k0_pay1 (View.ld x0 rRow) (View.ld x1 rTab) (View.ld x2 rMask)⟩]

/-- The one store covers the block. -/
theorem cover_out (p0 : Vec F S1x1 .f32) (y : S1x1.Idx) :
    ∃ pc ∈ ([⟨rOut, p0⟩] : List (View.Piece (Elt F) S1x1 .f32)), y ∈ pc.1.set :=
  View.cover_of_tiled [⟨rOut, p0⟩] S1x1.size (by rfl) y

set_option maxHeartbeats 1000000 in
/-- The body on whole staging buffers, the three inputs at known contents and the output at anything (it is read once,
    the value unused, then stored whole): it returns with the inputs as they were and the output at `outBlk`. -/
theorem sound_kernel (c : Dev nD) (E : Set ℕ) (i : grid0.Coords) (arg1 : Memref sig .tc .vmem S1x1024 .f32) (harg1 : arg1.IsWhole)
    (arg2 : Memref sig .tc .vmem S1024x64 .bf16) (harg2 : arg2.IsWhole) (arg3 : Memref sig .tc .vmem S1x64 .f32) (harg3 : arg3.IsWhole)
    (arg4 : Memref sig .tc .vmem S1x1 .f32) (harg4 : arg4.IsWhole)
    (x0 : Vec F S1x1024 .f32) (x1 : Vec F S1024x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__supcon_single_row_kernel i arg1 harg1 arg2 harg2 arg3 harg3 arg4 harg4) K := by
  simp only [cc0__supcon_single_row_kernel_eq_skeleton]; unfold cc0__supcon_single_row_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The proof data -/

/-- Per core: the staged arrays as the launch finds them; after the body each input buffer at its block and the output
    buffer at `outBlk` of the three; nothing of the kernel's own to track; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry function ends, faulting nowhere, with each staged array at what the
    write-back of the body's blocks gives and every other buffer at what the trailing operations compute. -/
theorem run_main : θ_run defs (onTc (τ := τ) (main (F := F))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame: the program runs to the end and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Fr

end
-- ==== Proof.KIFrame.lean ====
/- The frame of the program: its entry function is three stretches of host operations, one kernel launch on a
   one-point grid, and two stretches of host operations. The host operations before the launch compute the index of
   the last nonzero label, slice that label, that row of the features and the label's mask row, and transpose the
   table; the kernel reads three whole blocks and writes one scalar block; the operations after the launch scale the
   scalar and select it. Here: the contents each buffer holds when the launch is entered (the fold of the operations
   before it over the launch memory), that no operation writes an argument array, what the kernel body leaves in its
   output block as a function of its three input blocks, and the run of the whole entry function to a state in which
   the four staged arrays hold what the blocks' write-back gives and every other buffer what the trailing operations
   compute from them. -/
import proofs.«404133_j52647709114635_2_alg».proof.Proof.Gen.KernelIdeal.Launch
import proofs.«404133_j52647709114635_2_alg».proof.Proof.Gen.KernelIdeal.Skeleton
import proofs.«404133_j52647709114635_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The entry function around the launch -/

/-- What core `c`'s buffers hold when the launch is entered: the operations before it folded over the launch memory. -/
abbrev V0 (c : Dev nD) : Valuation τ sig (Elt F) :=
  StableHlo.after (List.flatten [hostOps0, hostOps0_1, hostOps0_2]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- The entry function reduces to the launch continued by the two trailing stretches, at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0, hostOps0_1, hostOps0_2] [hostOps1, hostOps1_1]
    (by simp only [List.Forall]; exact ⟨hostOps0_sub, hostOps0_1_sub, hostOps0_2_sub⟩)
    (by simp only [List.Forall]; exact ⟨hostOps0_fresh, hostOps0_1_fresh, hostOps0_2_fresh⟩) main_chain

/-- The trailing operations touch only staged arrays and buffers that bypass the launch, -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- allocate nothing, -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- and write no staged array: each writes its own result buffer. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)
  · simp only [hostOps1_1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

set_option maxHeartbeats 1000000 in
/-- No operation before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
/-- No operation after the launch writes argument 0, and it is no staged array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
set_option maxHeartbeats 1000000 in
/-- No operation before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
/-- No operation after the launch writes argument 1, and it is no staged array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
set_option maxHeartbeats 1000000 in
/-- No operation before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
/-- No operation after the launch writes argument 2, and it is no staged array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
set_option maxHeartbeats 1000000 in
/-- No operation before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
/-- No operation after the launch writes argument 3, and it is no staged array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The blocks -/

/-- Window `w`'s block at the grid point, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block when the body runs, for any proof data over `V` whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block when the body runs, for any proof data over `V` whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block when the body runs, for any proof data over `V` whose body leaves
    the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run to the library's post over the trailing operations: each argument array is staged by no window, so it
    ends at what the trailing operations leave, which is what it was launched with. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The kernel body -/

abbrev rRow : Rect S1x1024 := Rect.unit (s := S1x1024) ![0, 0] S1x1024.size inb_S1x1024_S1x1024_0_0
abbrev rTab : Rect S1024x64 := Rect.unit (s := S1024x64) ![0, 0] S1024x64.size inb_S1024x64_S1024x64_0_0
abbrev rMask : Rect S1x64 := Rect.unit (s := S1x64) ![0, 0] S1x64.size inb_S1x64_S1x64_0_0
abbrev rOut : Rect S1x1 := Rect.unit (s := S1x1) ![0, 0] S1x1.size inb_S1x1_S1x1_0_0

/-- What the body leaves in the output block: its one store, of the payload of the three loaded blocks. -/
def outBlk (x0 : Vec F S1x1024 .f32) (x1 : Vec F S1024x64 .bf16) (x2 : Vec F S1x64 .f32) : Vec F S1x1 .f32 :=
  View.canon [⟨rOut, k0_pay1 (View.ld x0 rRow) (View.ld x1 rTab) (View.ld x2 rMask)⟩]

/-- The one store covers the block. -/
theorem cover_out (p0 : Vec F S1x1 .f32) (y : S1x1.Idx) :
    ∃ pc ∈ ([⟨rOut, p0⟩] : List (View.Piece (Elt F) S1x1 .f32)), y ∈ pc.1.set :=
  View.cover_of_tiled [⟨rOut, p0⟩] S1x1.size (by rfl) y

set_option maxHeartbeats 1000000 in
/-- The body on whole staging buffers, the three inputs at known contents and the output at anything (it is read once,
    the value unused, then stored whole): it returns with the inputs as they were and the output at `outBlk`. -/
theorem sound_kernel (c : Dev nD) (E : Set ℕ) (i : grid0.Coords) (arg1 : Memref sig .tc .vmem S1x1024 .f32) (harg1 : arg1.IsWhole)
    (arg2 : Memref sig .tc .vmem S1024x64 .bf16) (harg2 : arg2.IsWhole) (arg3 : Memref sig .tc .vmem S1x64 .f32) (harg3 : arg3.IsWhole)
    (arg4 : Memref sig .tc .vmem S1x1 .f32) (harg4 : arg4.IsWhole)
    (x0 : Vec F S1x1024 .f32) (x1 : Vec F S1024x64 .bf16) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__supcon_single_row_kernel i arg1 harg1 arg2 harg2 arg3 harg3 arg4 harg4) K := by
  simp only [cc0__supcon_single_row_kernel_eq_skeleton]; unfold cc0__supcon_single_row_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The proof data -/

/-- Per core: the staged arrays as the launch finds them; after the body each input buffer at its block and the output
    buffer at `outBlk` of the three; nothing of the kernel's own to track; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the entry function ends, faulting nowhere, with each staged array at what the
    write-back of the body's blocks gives and every other buffer at what the trailing operations compute. -/
theorem run_main : θ_run defs (onTc (τ := τ) (main (F := F))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame: the program runs to the end and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Fr

end
-- ==== Proof.KIVal.lean ====
/- What the buffers the kernel launch reads hold when it is entered, and what the program's result is, as functions of
   the four argument arrays: the index of the last nonzero label (the reversed arg-max subtracted from the last
   position, wrapped if negative), the label there, the row of the features there, the mask row of that label (its
   table row compared with zero, as 0/1 floats), the transposed table; after the launch the scalar block divided by
   the batch size, selected against zero by whether any label is nonzero. -/
import proofs.«404133_j52647709114635_2_alg».proof.Proof.KIFrame
import Idealize.ShloMosaic.Lib.StableHlo.Run

noncomputable section

namespace Cert.KernelIdeal.Val

open Cert.KernelIdeal Cert.KernelIdeal.Gen Cert.KernelIdeal.Fr
open Idealize.ShloMosaic Idealize.ShloMosaic.TcCoe Idealize.SL.Sem Idealize.ShloMosaic.StableHlo

variable {F : FTy → Type} [FloatOps F]

/-- Rewrites each operation's result at its own buffer to its function's value, and at another buffer to what was
    there, until none applies. -/
macro "results_only" : tactic =>
  `(tactic| (repeat (first
               | rw [nullary_result] | rw [unary_result] | rw [binary_result] | rw [ternary_result] | rw [quaternary_result]
               | rw [reshape_result] | rw [unaryIndexed_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [unaryIndexed_result_ne]; rotate_left; decide))))

abbrev Lab (F : FTy → Type) := (⟨S65536, .i32⟩ : BufTy).Contents (Elt F)
abbrev Mot (F : FTy → Type) := (⟨S65536x1024, .f32⟩ : BufTy).Contents (Elt F)
abbrev Au (F : FTy → Type) := (⟨S64x1024, .f32⟩ : BufTy).Contents (Elt F)
abbrev Ex (F : FTy → Type) := (⟨S8x64, .i32⟩ : BufTy).Contents (Elt F)

/-- Which labels are nonzero. -/
def sValid (lab : Lab F) : (⟨S65536, .i1⟩ : BufTy).Contents (Elt F) :=
  cmpi .ne lab (broadcastInDim S65536 ![] bcast_S_S65536 (constantI S_ 32 0#32))
/-- Whether any is. -/
def sAny (lab : Lab F) : (⟨S_, .i1⟩ : BufTy).Contents (Elt F) :=
  Host.reduce IntOp.ori (sValid (F := F) lab) (constantI S_ 1 0#1) reducesTo_S65536_S_d0 h_S_
/-- The arg-max of the reversed flags: the distance of the last nonzero label from the end. -/
def sArg (lab : Lab F) : (⟨S_, .i32⟩ : BufTy).Contents (Elt F) :=
  fun j => (Host.reduce2 reducer_argmax_i1_i32 (Host.reverse [0] (sValid (F := F) lab)) (iotaInDim S65536 32 0) (constantI S_ 1 0#1) (constantI S_ 32 0#32) reducesTo_S65536_S_d0 h_S_ j).2
/-- The last position minus it. -/
def sV5 (lab : Lab F) : (⟨S_, .i32⟩ : BufTy).Contents (Elt F) := subi (constantI S_ 32 65535#32) (sArg (F := F) lab)
/-- Wrapped if negative: the index the slices start at. -/
def sIdx (lab : Lab F) : (⟨S_, .i32⟩ : BufTy).Contents (Elt F) :=
  select (cmpi .slt (sV5 (F := F) lab) (constantI S_ 32 0#32)) (addi (sV5 (F := F) lab) (constantI S_ 32 65536#32)) (sV5 (F := F) lab)
/-- The label at that index. -/
def sLabel (lab : Lab F) : (⟨S_, .i32⟩ : BufTy).Contents (Elt F) :=
  shapeCast S_ (Host.dynamicSlice S1 lab (fun k => ((fun _ : Fin 1 => sIdx (F := F) lab) k (Shape.Idx.first h_S_)).toInt) sliceFits_S65536_S1) shapeCasts_S1_S_
/-- The start indices of the row slice: the index, and column zero. -/
def sRowStart (lab : Lab F) : Fin 2 → (⟨S_, .i32⟩ : BufTy).Contents (Elt F) := ![sIdx (F := F) lab, constantI S_ 32 0#32]
/-- The row of the features at that index. -/
def sRow (lab : Lab F) (mot : Mot F) : (⟨S1x1024, .f32⟩ : BufTy).Contents (Elt F) :=
  Host.dynamicSlice S1x1024 mot (fun k => (sRowStart (F := F) lab k (Shape.Idx.first h_S_)).toInt) sliceFits_S65536x1024_S1x1024
/-- The label wrapped if negative. -/
def sWrap (lab : Lab F) : (⟨S_, .i32⟩ : BufTy).Contents (Elt F) :=
  select (cmpi .slt (sLabel (F := F) lab) (constantI S_ 32 0#32)) (addi (sLabel (F := F) lab) (constantI S_ 32 8#32)) (sLabel (F := F) lab)
/-- The column start of the mask-row slice, as the program computes it (zero). -/
def sCol0 : (⟨S_, .i32⟩ : BufTy).Contents (Elt F) :=
  select (cmpi .slt (constantI S_ 32 0#32 : (⟨S_, .i32⟩ : BufTy).Contents (Elt F)) (constantI S_ 32 0#32)) (addi (constantI S_ 32 0#32) (constantI S_ 32 64#32)) (constantI S_ 32 0#32)
def sMaskStart (lab : Lab F) : Fin 2 → (⟨S_, .i32⟩ : BufTy).Contents (Elt F) := ![sWrap (F := F) lab, sCol0 (F := F)]
/-- The table row of that label, -/
def sExRow (lab : Lab F) (ex : Ex F) : (⟨S64, .i32⟩ : BufTy).Contents (Elt F) :=
  shapeCast S64 (Host.dynamicSlice S1x64 ex (fun k => (sMaskStart (F := F) lab k (Shape.Idx.first h_S_)).toInt) sliceFits_S8x64_S1x64) shapeCasts_S1x64_S64
/-- compared with zero, as 0/1 floats, one row. -/
def sMask (lab : Lab F) (ex : Ex F) : (⟨S1x64, .f32⟩ : BufTy).Contents (Elt F) :=
  shapeCast S1x64 (uitofp (F := F) .f32 (cmpi .ne (sExRow (F := F) lab ex) (broadcastInDim S64 ![] bcast_S_S64 (constantI S_ 32 0#32)))) shapeCasts_S64_S1x64
/-- The table transposed (the change of format kept as printed). -/
def sTab (au : Au F) : (⟨S1024x64, .bf16⟩ : BufTy).Contents (Elt F) :=
  truncf .bf16 (transpose S1024x64 [1, 0] au transposes_S64x1024_S1024x64_1_0) bitsLt_bf16_f32
/-- The program's result from the launch's scalar block. -/
def sOut (lab : Lab F) (blk : (⟨S1x1, .f32⟩ : BufTy).Contents (Elt F)) : (⟨S_, .f32⟩ : BufTy).Contents (Elt F) :=
  select (sAny (F := F) lab) (Host.divf (shapeCast S_ blk shapeCasts_S1x1_S_) (constant S_ .f32 0x47800000#32)) (id (constant S_ .f32 0x00000000#32))

variable [Named F]
variable (m : (ℓ : Loc nD τ sig) → Buf (Elt F) ℓ) (ρ : Dev nD → PrngReg)

set_option maxHeartbeats 4000000 in
/-- The first window's array at entry is the row. -/
theorem V_v14 (c : Dev nD) : (V m c main_v14 : (⟨S1x1024, .f32⟩ : BufTy).Contents (Elt F))
    = sRow (m ((c : Thread nD τ).loc main_arg0)) (m ((c : Thread nD τ).loc main_arg1)) := by
  dsimp only [V, V0]
  simp only [hostOps0, hostOps0_1, hostOps0_2, List.flatten_cons, List.flatten_nil, List.append_nil, List.cons_append, List.nil_append]
  after_results
  unfold sRow
  refine congrArg (fun st => Host.dynamicSlice S1x1024 _ st sliceFits_S65536x1024_S1x1024) (funext (Fin.forall_fin_two.2 ⟨?_, ?_⟩))
  · refine congrArg (fun z : (⟨S_, .i32⟩ : BufTy).Contents (Elt F) => BitVec.toInt (z (Shape.Idx.first h_S_))) ?_
    refine (cast_eq _ _).trans ?_
    dsimp only [Matrix.cons_val_zero]
    results_only
    simp only [sRowStart, Matrix.cons_val_zero, sIdx, sV5, sArg, sValid, TRef.ofBuf, TRef.toBuf, cast_eq]
    rfl
  · refine congrArg (fun z : (⟨S_, .i32⟩ : BufTy).Contents (Elt F) => BitVec.toInt (z (Shape.Idx.first h_S_))) ?_
    refine (cast_eq _ _).trans ?_
    dsimp only [Matrix.cons_val_one, Matrix.head_cons, Matrix.cons_val_zero]
    results_only
    simp only [sRowStart, Matrix.cons_val_one, Matrix.head_cons, Matrix.cons_val_zero]

end Cert.KernelIdeal.Val

end
-- ==== Proof.KIVal2.lean ====
/- What two more buffers the kernel launch reads hold when it is entered, and what the program's result buffer holds
   after the trailing operations, as functions of the argument arrays: the transposed table in the narrow format, the
   mask row of the label at the last nonzero position, and the launch's scalar block divided by the batch size and
   selected against zero by whether any label is nonzero. -/
import proofs.«404133_j52647709114635_2_alg».proof.Proof.KIVal

noncomputable section

namespace Cert.KernelIdeal.Val

open Cert.KernelIdeal Cert.KernelIdeal.Gen Cert.KernelIdeal.Fr
open Idealize.ShloMosaic Idealize.ShloMosaic.TcCoe Idealize.SL.Sem Idealize.ShloMosaic.StableHlo

variable {F : FTy → Type} [FloatOps F] [Named F]
variable (m : (ℓ : Loc nD τ sig) → Buf (Elt F) ℓ)

set_option maxHeartbeats 4000000 in
/-- The second window's array at entry is the table transposed and narrowed. -/
theorem V_v28 (c : Dev nD) : (V m c main_v28 : (⟨S1024x64, .bf16⟩ : BufTy).Contents (Elt F)) = sTab (m ((c : Thread nD τ).loc main_arg2)) := by
  dsimp only [V, V0]
  simp only [hostOps0, hostOps0_1, hostOps0_2, List.flatten_cons, List.flatten_nil, List.append_nil, List.cons_append, List.nil_append]
  after_results
  unfold sTab
  rfl

set_option maxHeartbeats 4000000 in
/-- The third window's array at entry is the mask row. -/
theorem V_v26 (c : Dev nD) : (V m c main_v26 : (⟨S1x64, .f32⟩ : BufTy).Contents (Elt F))
    = sMask (m ((c : Thread nD τ).loc main_arg0)) (m ((c : Thread nD τ).loc main_arg3)) := by
  dsimp only [V, V0]
  simp only [hostOps0, hostOps0_1, hostOps0_2, List.flatten_cons, List.flatten_nil, List.append_nil, List.cons_append, List.nil_append]
  after_results
  unfold sMask sExRow
  refine congrArg (fun st => shapeCast S1x64 (uitofp (F := F) .f32 (cmpi .ne (shapeCast S64 (Host.dynamicSlice S1x64 _ st sliceFits_S8x64_S1x64) shapeCasts_S1x64_S64) (broadcastInDim S64 ![] bcast_S_S64 (constantI S_ 32 0#32)))) shapeCasts_S64_S1x64) (funext (Fin.forall_fin_two.2 ⟨?_, ?_⟩))
  · refine congrArg (fun z : (⟨S_, .i32⟩ : BufTy).Contents (Elt F) => BitVec.toInt (z (Shape.Idx.first h_S_))) ?_
    refine (cast_eq _ _).trans ?_
    dsimp only [Matrix.cons_val_zero]
    results_only
    simp only [sMaskStart, Matrix.cons_val_zero, sWrap]
    refine congrArg (fun z : (⟨S_, .i32⟩ : BufTy).Contents (Elt F) => select (cmpi .slt z (constantI S_ 32 0#32)) (addi z (constantI S_ 32 8#32)) z) ?_
    unfold sLabel
    refine congrArg (fun st => shapeCast S_ (Host.dynamicSlice S1 _ st sliceFits_S65536_S1) shapeCasts_S1_S_) (funext fun k => ?_)
    obtain rfl : k = 0 := Subsingleton.elim _ _
    refine congrArg (fun z : (⟨S_, .i32⟩ : BufTy).Contents (Elt F) => BitVec.toInt (z (Shape.Idx.first h_S_))) ?_
    refine (cast_eq _ _).trans ?_
    dsimp only [Matrix.cons_val_zero]
    results_only
    simp only [sIdx, sV5, sArg, sValid, TRef.ofBuf, TRef.toBuf, cast_eq]
    rfl
  · refine congrArg (fun z : (⟨S_, .i32⟩ : BufTy).Contents (Elt F) => BitVec.toInt (z (Shape.Idx.first h_S_))) ?_
    refine (cast_eq _ _).trans ?_
    dsimp only [Matrix.cons_val_one, Matrix.head_cons, Matrix.cons_val_zero]
    results_only
    simp only [sMaskStart, sCol0, Matrix.cons_val_one, Matrix.head_cons, Matrix.cons_val_zero]

set_option maxHeartbeats 4000000 in
/-- The program's result: the launch's scalar block divided by the batch size, selected against zero by whether any
    label is nonzero. -/
theorem tail_v32 (c : Dev nD) : (Pipeline.afterTail₀ cfgs (dats m) 0 (V0 m) [hostOps1, hostOps1_1] c main_v32 : (⟨S_, .f32⟩ : BufTy).Contents (Elt F))
    = sOut (m ((c : Thread nD τ).loc main_arg0)) ((dats m 0 c).arrAt 3 cfg0.N) := by
  unfold Pipeline.afterTail₀
  simp only [hostOps1, hostOps1_1, List.flatten_cons, List.flatten_nil, List.append_nil, List.cons_append, List.nil_append]
  after_results
  simp only [TRef.ofBuf, TRef.toBuf, cast_eq]
  rw [Pipeline.withArrays_of_ne _ c (V0 m c) _ main_v2 (by exact (by decide : ∀ w, Pipeline.arrRef spec0 w ≠ main_v2)),
    show Pipeline.withArrays (cfgs 0).spec c (V0 m c) (fun w => (dats m 0 c).arrAt w (cfgs 0).N) (Proc.devRef .tc main_v29)
      = (dats m 0 c).arrAt 3 cfg0.N from Pipeline.withArrays_arr spec0 launch0.win.arr_inj c _ _ 3]
  unfold sOut
  refine congrArg (fun a : (⟨S_, .i1⟩ : BufTy).Contents (Elt F) =>
    select a (Host.divf (shapeCast S_ ((dats m 0 c).arrAt 3 cfg0.N) shapeCasts_S1x1_S_) (constant S_ .f32 0x47800000#32)) (id (constant S_ .f32 0x00000000#32))) ?_
  dsimp only [V0]
  simp only [hostOps0, hostOps0_1, hostOps0_2, List.flatten_cons, List.flatten_nil, List.append_nil, List.cons_append, List.nil_append]
  after_results
  simp only [sAny, sValid]

end Cert.KernelIdeal.Val

end
-- ==== Proof.KIArr.lean ====
/- From the block to the array. The grid has one point and every window's block is its whole array, so what the one
   point writes back is the whole output array: the output array's entry after the run is the body's payload of the
   three input arrays as the launch finds them, read at that entry. -/
import proofs.«404133_j52647709114635_2_alg».proof.Proof.KIFrame
import Idealize.ShloMosaic.Lib.Pipeline.Value
import Idealize.ShloMosaic.Lib.ValueIdx

noncomputable section

namespace Cert.KernelIdeal.Arr

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable {F : FTy → Type} [FloatOps F] [Named F]
variable (m : (ℓ : Loc nD τ sig) → Buf (Elt F) ℓ)

theorem hz : (![0, 0] : Fin 2 → Nat) = fun _ => 0 := funext fun a => by fin_cases a <;> rfl

/-- Every window's block index is zero at the grid's one point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The first input's block is its whole array. -/
theorem iblk0_eq (c : Dev nD) (t : Fin cfg0.N) :
    (iblk m c 0 t : Vec F S1x1024 .f32) = (V m c main_v14 : Vec F S1x1024 .f32) := by
  obtain ⟨e0, e1, -⟩ := idx_facts t
  funext y
  show V m c main_v14 (((cfg0.win 0).blk t).view.emb y) = V m c main_v14 y
  refine congrArg (V m c main_v14) (funext fun a => Fin.ext ?_)
  match a with
  | ⟨0, _⟩ => show win0_0.index t (0 : Fin 2) * 1 + 1 * (y 0).val = (y 0).val; omega
  | ⟨1, _⟩ => show win0_0.index t (1 : Fin 2) * 1024 + 1 * (y 1).val = (y 1).val; omega

/-- The second input's block is its whole array. -/
theorem iblk1_eq (c : Dev nD) (t : Fin cfg0.N) :
    (iblk m c 1 t : Vec F S1024x64 .bf16) = (V m c main_v28 : Vec F S1024x64 .bf16) := by
  obtain ⟨-, -, e0, e1, -⟩ := idx_facts t
  funext y
  show V m c main_v28 (((cfg0.win 1).blk t).view.emb y) = V m c main_v28 y
  refine congrArg (V m c main_v28) (funext fun a => Fin.ext ?_)
  match a with
  | ⟨0, _⟩ => show win0_1.index t (0 : Fin 2) * 1024 + 1 * (y 0).val = (y 0).val; omega
  | ⟨1, _⟩ => show win0_1.index t (1 : Fin 2) * 64 + 1 * (y 1).val = (y 1).val; omega

/-- The third input's block is its whole array. -/
theorem iblk2_eq (c : Dev nD) (t : Fin cfg0.N) :
    (iblk m c 2 t : Vec F S1x64 .f32) = (V m c main_v26 : Vec F S1x64 .f32) := by
  obtain ⟨-, -, -, -, e0, e1, -⟩ := idx_facts t
  funext y
  show V m c main_v26 (((cfg0.win 2).blk t).view.emb y) = V m c main_v26 y
  refine congrArg (V m c main_v26) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The one store is whole: the output block is the payload of the three loaded blocks, each loaded whole. -/
theorem outBlk_eq (x0 : Vec F S1x1024 .f32) (x1 : Vec F S1024x64 .bf16) (x2 : Vec F S1x64 .f32) :
    outBlk x0 x1 x2 = k0_pay1 x0 x1 x2 := by
  unfold outBlk
  rw [View.canon_unit_zero hz]
  simp only [View.ld_unit_zero (S := S1x1024) hz, View.ld_unit_zero (S := S1024x64) hz, View.ld_unit_zero (S := S1x64) hz]

/-- THE OUTPUT ARRAY'S ENTRY after the run: the payload of the three input arrays as the launch finds them. -/
theorem arr3 (c : Dev nD) :
    (dats m 0 c).arrAt 3 cfg0.N (ix2 0 0)
      = k0_pay1 (V m c main_v14 : Vec F S1x1024 .f32) (V m c main_v28 : Vec F S1024x64 .bf16) (V m c main_v26 : Vec F S1x64 .f32) (ix2 0 0) := by
  have hb := (dats m 0 c).read_blk_arrAt_eq_flushed 3
    (fun t t' _ _ hne => absurd ((fin_N0 t).trans (fin_N0 t').symm) hne) cfg0.N t0_0 t0_0.isLt (flush0_3 t0_0)
  have hj := congrFun hb (ix2 0 0)
  obtain ⟨-, -, -, -, -, -, e0, e1⟩ := idx_facts t0_0
  refine Eq.trans ?_ (hj.trans ?_)
  · show (dats m 0 c).arrAt 3 cfg0.N (ix2 0 0) = (dats m 0 c).arrAt 3 cfg0.N (((cfg0.win 3).blk t0_0).view.emb (ix2 0 0))
    refine congrArg ((dats m 0 c).arrAt 3 cfg0.N) (funext fun a => Fin.ext ?_)
    match a with
    | ⟨0, _⟩ => show 0 = win0_3.index t0_0 (0 : Fin 2) * 1 + 1 * 0; omega
    | ⟨1, _⟩ => show 0 = win0_3.index t0_0 (1 : Fin 2) * 1 + 1 * 0; omega
  · show (cfg0.win 3).cut (grid0.coords t0_0) ((dats m 0 c).after 3 t0_0) (ix2 0 0) = _
    rw [after0_3, outBlk_eq, iblk0_eq, iblk1_eq, iblk2_eq]
    rfl

end Cert.KernelIdeal.Arr

end
-- ==== Proof.KIRun.lean ====
/- The kernel program's run with its result named: every weakly fair execution ends with the result buffer at the last
   two host steps applied to the launch's output array (whose entry is the body's payload of the sliced row, the
   transposed table and the mask row), and the four argument arrays as launched. -/
import proofs.«404133_j52647709114635_2_alg».proof.Proof.KIVal2
import proofs.«404133_j52647709114635_2_alg».proof.Proof.KIArr

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx

variable {F : FTy → Type} [FloatOps F] [Named F]
variable (m : (ℓ : Loc nD τ sig) → Buf (Elt F) ℓ) (ρ : Dev nD → PrngReg)

/-- The launch's output array holds, at its entry, the payload of the three staged arrays as functions of the arguments. -/
theorem arr3_val (c : Dev nD) :
    (dats m 0 c).arrAt 3 cfg0.N (ix2 0 0)
      = k0_pay1 (sRow (m ((c : Thread nD τ).loc main_arg0)) (m ((c : Thread nD τ).loc main_arg1)))
          (sTab (m ((c : Thread nD τ).loc main_arg2)))
          (sMask (m ((c : Thread nD τ).loc main_arg0)) (m ((c : Thread nD τ).loc main_arg3))) (ix2 0 0) := by
  rw [Cert.KernelIdeal.Arr.arr3, V_v14, V_v28, V_v26]

/-- The run, with the result named and the arguments kept. -/
theorem run_val : θ_run defs (onTc (τ := τ) (main (F := F))) ⟨m, fun _ => 0, ρ⟩ fun r => ∀ c : Dev nD,
      r.2.mem ((c.tc : Thread nD τ).loc main_v32)
          = sOut (m ((c : Thread nD τ).loc main_arg0)) ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v32 (Pipeline.mem_restRefs_of main_v32 (by decide) (by decide))).trans (tail_v32 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Val

end
-- ==== Proof.RefStages.lean ====
/-
  The value of every stage of the reference program's @main as a pure function of its four arguments: each
  non-constant value that a later stage reads is one operation of the program applied to the stages before it,
  the constants and their broadcasts written where they are used.
-/
import proofs.«404133_j52647709114635_2_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- %0: the contraction of the two float arguments over their second axes. -/
def val_v0 (mot : (⟨S65536x1024, .f32⟩ : BufTy).Contents (Elt F)) (au : (⟨S64x1024, .f32⟩ : BufTy).Contents (Elt F)) : (⟨S65536x64, .f32⟩ : BufTy).Contents (Elt F) :=
  Host.dotGeneral dot_S65536x1024_S64x1024_S65536x64_1_1_0_0_n_n none mot au

/-- %2 = %0 divided, element by element, by the constant 0.07. -/
def val_v2 (mot : (⟨S65536x1024, .f32⟩ : BufTy).Contents (Elt F)) (au : (⟨S64x1024, .f32⟩ : BufTy).Contents (Elt F)) : (⟨S65536x64, .f32⟩ : BufTy).Contents (Elt F) :=
  Host.divf (val_v0 mot au) (broadcastInDim S65536x64 ![] bcast_S_S65536x64 (constant S_ .f32 0x3D8F5C29#32))

/-- %7: each label, with 8 added where it is negative. -/
def val_v7 (lab : (⟨S65536, .i32⟩ : BufTy).Contents (Elt F)) : (⟨S65536, .i32⟩ : BufTy).Contents (Elt F) :=
  select (cmpi .slt lab (broadcastInDim S65536 ![] bcast_S_S65536 (constantI S_ 32 0#32)))
    (addi lab (broadcastInDim S65536 ![] bcast_S_S65536 (constantI S_ 32 8#32))) lab

/-- %9: per sample, the row of the table that its wrapped label names. -/
def val_v9 (lab : (⟨S65536, .i32⟩ : BufTy).Contents (Elt F)) (ex : (⟨S8x64, .i32⟩ : BufTy).Contents (Elt F)) : (⟨S65536x64, .i32⟩ : BufTy).Contents (Elt F) :=
  Host.gather gather_S8x64_S65536x1_S65536x64_1_0_n_n_0_1_164 ex
    (broadcastInDim S65536x1 ![0] bcast_S65536_S65536x1_0 (val_v7 lab))

/-- %11: where the gathered row is not zero. -/
def val_v11 (lab : (⟨S65536, .i32⟩ : BufTy).Contents (Elt F)) (ex : (⟨S8x64, .i32⟩ : BufTy).Contents (Elt F)) : (⟨S65536x64, .i1⟩ : BufTy).Contents (Elt F) :=
  cmpi .ne (val_v9 lab ex) (broadcastInDim S65536x64 ![] bcast_S_S65536x64 (constantI S_ 32 0#32))

/-- %12 = exp %2. -/
def val_v12 (mot : (⟨S65536x1024, .f32⟩ : BufTy).Contents (Elt F)) (au : (⟨S64x1024, .f32⟩ : BufTy).Contents (Elt F)) : (⟨S65536x64, .f32⟩ : BufTy).Contents (Elt F) :=
  Host.exp (val_v2 mot au)

/-- %13: zero where %11 holds, %12 elsewhere. -/
def val_v13 (lab : (⟨S65536, .i32⟩ : BufTy).Contents (Elt F)) (mot : (⟨S65536x1024, .f32⟩ : BufTy).Contents (Elt F)) (au : (⟨S64x1024, .f32⟩ : BufTy).Contents (Elt F)) (ex : (⟨S8x64, .i32⟩ : BufTy).Contents (Elt F)) : (⟨S65536x64, .f32⟩ : BufTy).Contents (Elt F) :=
  select (val_v11 lab ex) (broadcastInDim S65536x64 ![] bcast_S_S65536x64 (id (constant S_ .f32 0x00000000#32))) (val_v12 mot au)

/-- %14: the sum of %13 along each row, from zero. -/
def val_v14 (lab : (⟨S65536, .i32⟩ : BufTy).Contents (Elt F)) (mot : (⟨S65536x1024, .f32⟩ : BufTy).Contents (Elt F)) (au : (⟨S64x1024, .f32⟩ : BufTy).Contents (Elt F)) (ex : (⟨S8x64, .i32⟩ : BufTy).Contents (Elt F)) : (⟨S65536, .f32⟩ : BufTy).Contents (Elt F) :=
  Host.reduceAdd (val_v13 lab mot au ex) (constant S_ .f32 0x00000000#32) reducesTo_S65536x64_S65536_d1 h_S_

/-- %15 = log %14. -/
def val_v15 (lab : (⟨S65536, .i32⟩ : BufTy).Contents (Elt F)) (mot : (⟨S65536x1024, .f32⟩ : BufTy).Contents (Elt F)) (au : (⟨S64x1024, .f32⟩ : BufTy).Contents (Elt F)) (ex : (⟨S8x64, .i32⟩ : BufTy).Contents (Elt F)) : (⟨S65536, .f32⟩ : BufTy).Contents (Elt F) :=
  Host.log (val_v14 lab mot au ex)

/-- %17: per row, how many entries of %11 hold (the integer sum of its zero-extension, from zero). -/
def val_v17 (lab : (⟨S65536, .i32⟩ : BufTy).Contents (Elt F)) (ex : (⟨S8x64, .i32⟩ : BufTy).Contents (Elt F)) : (⟨S65536, .i32⟩ : BufTy).Contents (Elt F) :=
  Host.reduce IntOp.addi (extui 32 (val_v11 lab ex) natLt_1_32) (constantI S_ 32 0#32) reducesTo_S65536x64_S65536_d1 h_S_

/-- %18: that count as a float. -/
def val_v18 (lab : (⟨S65536, .i32⟩ : BufTy).Contents (Elt F)) (ex : (⟨S8x64, .i32⟩ : BufTy).Contents (Elt F)) : (⟨S65536, .f32⟩ : BufTy).Contents (Elt F) :=
  sitofp (F := F) .f32 (val_v17 lab ex)

/-- %19: %2 where %11 holds, zero elsewhere. -/
def val_v19 (lab : (⟨S65536, .i32⟩ : BufTy).Contents (Elt F)) (mot : (⟨S65536x1024, .f32⟩ : BufTy).Contents (Elt F)) (au : (⟨S64x1024, .f32⟩ : BufTy).Contents (Elt F)) (ex : (⟨S8x64, .i32⟩ : BufTy).Contents (Elt F)) : (⟨S65536x64, .f32⟩ : BufTy).Contents (Elt F) :=
  select (val_v11 lab ex) (val_v2 mot au) (broadcastInDim S65536x64 ![] bcast_S_S65536x64 (id (constant S_ .f32 0x00000000#32)))

/-- %20: the sum of %19 along each row, from zero. -/
def val_v20 (lab : (⟨S65536, .i32⟩ : BufTy).Contents (Elt F)) (mot : (⟨S65536x1024, .f32⟩ : BufTy).Contents (Elt F)) (au : (⟨S64x1024, .f32⟩ : BufTy).Contents (Elt F)) (ex : (⟨S8x64, .i32⟩ : BufTy).Contents (Elt F)) : (⟨S65536, .f32⟩ : BufTy).Contents (Elt F) :=
  Host.reduceAdd (val_v19 lab mot au ex) (constant S_ .f32 0x00000000#32) reducesTo_S65536x64_S65536_d1 h_S_

/-- %21 = %18 · %15. -/
def val_v21 (lab : (⟨S65536, .i32⟩ : BufTy).Contents (Elt F)) (mot : (⟨S65536x1024, .f32⟩ : BufTy).Contents (Elt F)) (au : (⟨S64x1024, .f32⟩ : BufTy).Contents (Elt F)) (ex : (⟨S8x64, .i32⟩ : BufTy).Contents (Elt F)) : (⟨S65536, .f32⟩ : BufTy).Contents (Elt F) :=
  mulf (val_v18 lab ex) (val_v15 lab mot au ex)

/-- %22 = %20 − %21. -/
def val_v22 (lab : (⟨S65536, .i32⟩ : BufTy).Contents (Elt F)) (mot : (⟨S65536x1024, .f32⟩ : BufTy).Contents (Elt F)) (au : (⟨S64x1024, .f32⟩ : BufTy).Contents (Elt F)) (ex : (⟨S8x64, .i32⟩ : BufTy).Contents (Elt F)) : (⟨S65536, .f32⟩ : BufTy).Contents (Elt F) :=
  subf (val_v20 lab mot au ex) (val_v21 lab mot au ex)

/-- %23 = %22 / %18: the quotient per sample. -/
def val_v23 (lab : (⟨S65536, .i32⟩ : BufTy).Contents (Elt F)) (mot : (⟨S65536x1024, .f32⟩ : BufTy).Contents (Elt F)) (au : (⟨S64x1024, .f32⟩ : BufTy).Contents (Elt F)) (ex : (⟨S8x64, .i32⟩ : BufTy).Contents (Elt F)) : (⟨S65536, .f32⟩ : BufTy).Contents (Elt F) :=
  Host.divf (val_v22 lab mot au ex) (val_v18 lab ex)

/-- %25: where the label is not zero. -/
def val_v25 (lab : (⟨S65536, .i32⟩ : BufTy).Contents (Elt F)) : (⟨S65536, .i1⟩ : BufTy).Contents (Elt F) :=
  cmpi .ne lab (broadcastInDim S65536 ![] bcast_S_S65536 (constantI S_ 32 0#32))

/-- %27: the position component of the pairwise reduction of %25 reversed against the positions 0, 1, …,
    from (false, 0). -/
def val_v27 (lab : (⟨S65536, .i32⟩ : BufTy).Contents (Elt F)) : (⟨S_, .i32⟩ : BufTy).Contents (Elt F) :=
  fun j => (Host.reduce2 reducer_argmax_i1_i32 (Host.reverse [0] (val_v25 lab)) (iotaInDim S65536 32 0)
    (constantI S_ 1 0#1) (constantI S_ 32 0#32) reducesTo_S65536_S_d0 h_S_ j).2

/-- %28 = 65535 − %27. -/
def val_v28 (lab : (⟨S65536, .i32⟩ : BufTy).Contents (Elt F)) : (⟨S_, .i32⟩ : BufTy).Contents (Elt F) :=
  subi (constantI S_ 32 65535#32) (val_v27 lab)

/-- %29: whether any label is not zero (the disjunction of %25, from false). -/
def val_v29 (lab : (⟨S65536, .i32⟩ : BufTy).Contents (Elt F)) : (⟨S_, .i1⟩ : BufTy).Contents (Elt F) :=
  Host.reduce IntOp.ori (val_v25 lab) (constantI S_ 1 0#1) reducesTo_S65536_S_d0 h_S_

/-- %32: %28, with 65536 added where it is negative. -/
def val_v32 (lab : (⟨S65536, .i32⟩ : BufTy).Contents (Elt F)) : (⟨S_, .i32⟩ : BufTy).Contents (Elt F) :=
  select (cmpi .slt (val_v28 lab) (constantI S_ 32 0#32)) (addi (val_v28 lab) (constantI S_ 32 65536#32)) (val_v28 lab)

/-- %34: the one element of %23 at position %32, as a scalar. -/
def val_v34 (lab : (⟨S65536, .i32⟩ : BufTy).Contents (Elt F)) (mot : (⟨S65536x1024, .f32⟩ : BufTy).Contents (Elt F)) (au : (⟨S64x1024, .f32⟩ : BufTy).Contents (Elt F)) (ex : (⟨S8x64, .i32⟩ : BufTy).Contents (Elt F)) : (⟨S_, .f32⟩ : BufTy).Contents (Elt F) :=
  shapeCast S_ (Host.dynamicSlice S1 (val_v23 lab mot au ex)
    (fun k => ((![val_v32 lab] : Fin 1 → (⟨S_, .i32⟩ : BufTy).Contents (Elt F)) k (Shape.Idx.first h_S_)).toInt) sliceFits_S65536_S1) shapeCasts_S1_S_

/-- %35 = %34 / 65536. -/
def val_v35 (lab : (⟨S65536, .i32⟩ : BufTy).Contents (Elt F)) (mot : (⟨S65536x1024, .f32⟩ : BufTy).Contents (Elt F)) (au : (⟨S64x1024, .f32⟩ : BufTy).Contents (Elt F)) (ex : (⟨S8x64, .i32⟩ : BufTy).Contents (Elt F)) : (⟨S_, .f32⟩ : BufTy).Contents (Elt F) :=
  Host.divf (val_v34 lab mot au ex) (constant S_ .f32 0x47800000#32)

/-- %36, the program's result: %35 where %29 holds, zero otherwise. -/
def result (lab : (⟨S65536, .i32⟩ : BufTy).Contents (Elt F)) (mot : (⟨S65536x1024, .f32⟩ : BufTy).Contents (Elt F)) (au : (⟨S64x1024, .f32⟩ : BufTy).Contents (Elt F)) (ex : (⟨S8x64, .i32⟩ : BufTy).Contents (Elt F)) : (⟨S_, .f32⟩ : BufTy).Contents (Elt F) :=
  select (val_v29 lab) (val_v35 lab mot au ex) (id (constant S_ .f32 0x00000000#32))

end Cert.ReferenceIdeal.RefRun

end
-- ==== Proof.RefRun.lean ====
/-
  The reference program's @main as a list of its host operations (each outlined function's operations listed
  at its call site, over that call's buffers) and its run read back: every weakly fair execution of @main
  terminates with the result buffer at `result` of the arguments' launch contents — the composed term of the
  stages — and the arguments unchanged.
-/
import proofs.«404133_j52647709114635_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- @main's first 55 operations, in order, through the wrapped position %32: its own, and at each of the first
    three calls the callee's (for the two array selections the scalar's conversion, its broadcast and the select;
    for the pairwise reduction the positions, the two initial values and one line per component). -/
abbrev ops₁ : List (HloOp τ sig (Elt F)) :=
  [ binary main_arg1 main_arg2 main_v0 ((fun l r => Host.dotGeneral dot_S65536x1024_S64x1024_S65536x64_1_1_0_0_n_n none l r) : (⟨S65536x1024, .f32⟩ : BufTy).Contents (Elt F) → (⟨S64x1024, .f32⟩ : BufTy).Contents (Elt F) → (⟨S65536x64, .f32⟩ : BufTy).Contents (Elt F)),
    nullary main_cst (constant S_ .f32 0x3D8F5C29#32),
    unary main_cst main_v1 (broadcastInDim S65536x64 ![] bcast_S_S65536x64 : (⟨S_, .f32⟩ : BufTy).Contents (Elt F) → (⟨S65536x64, .f32⟩ : BufTy).Contents (Elt F)),
    binary main_v0 main_v1 main_v2 (Host.divf : (⟨S65536x64, .f32⟩ : BufTy).Contents (Elt F) → (⟨S65536x64, .f32⟩ : BufTy).Contents (Elt F) → (⟨S65536x64, .f32⟩ : BufTy).Contents (Elt F)),
    nullary main_c (constantI S_ 32 0#32),
    unary main_c main_v3 (broadcastInDim S65536 ![] bcast_S_S65536 : (⟨S_, .i32⟩ : BufTy).Contents (Elt F) → (⟨S65536, .i32⟩ : BufTy).Contents (Elt F)),
    binary main_arg0 main_v3 main_v4 (cmpi .slt : (⟨S65536, .i32⟩ : BufTy).Contents (Elt F) → (⟨S65536, .i32⟩ : BufTy).Contents (Elt F) → (⟨S65536, .i1⟩ : BufTy).Contents (Elt F)),
    nullary main_c_0 (constantI S_ 32 8#32),
    unary main_c_0 main_v5 (broadcastInDim S65536 ![] bcast_S_S65536 : (⟨S_, .i32⟩ : BufTy).Contents (Elt F) → (⟨S65536, .i32⟩ : BufTy).Contents (Elt F)),
    binary main_arg0 main_v5 main_v6 (addi : (⟨S65536, .i32⟩ : BufTy).Contents (Elt F) → (⟨S65536, .i32⟩ : BufTy).Contents (Elt F) → (⟨S65536, .i32⟩ : BufTy).Contents (Elt F)),
    ternary main_v4 main_v6 main_arg0 main_v7 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v7 main_v8 (broadcastInDim S65536x1 ![0] bcast_S65536_S65536x1_0 : (⟨S65536, .i32⟩ : BufTy).Contents (Elt F) → (⟨S65536x1, .i32⟩ : BufTy).Contents (Elt F)),
    binary main_arg3 main_v8 main_v9 ((fun x i => Host.gather gather_S8x64_S65536x1_S65536x64_1_0_n_n_0_1_164 x i) : (⟨S8x64, .i32⟩ : BufTy).Contents (Elt F) → (⟨S65536x1, .i32⟩ : BufTy).Contents (Elt F) → (⟨S65536x64, .i32⟩ : BufTy).Contents (Elt F)),
    nullary main_c_1 (constantI S_ 32 0#32),
    unary main_c_1 main_v10 (broadcastInDim S65536x64 ![] bcast_S_S65536x64 : (⟨S_, .i32⟩ : BufTy).Contents (Elt F) → (⟨S65536x64, .i32⟩ : BufTy).Contents (Elt F)),
    binary main_v9 main_v10 main_v11 (cmpi .ne : (⟨S65536x64, .i32⟩ : BufTy).Contents (Elt F) → (⟨S65536x64, .i32⟩ : BufTy).Contents (Elt F) → (⟨S65536x64, .i1⟩ : BufTy).Contents (Elt F)),
    unary main_v2 main_v12 (Host.exp : (⟨S65536x64, .f32⟩ : BufTy).Contents (Elt F) → (⟨S65536x64, .f32⟩ : BufTy).Contents (Elt F)),
    nullary main_cst_2 (constant S_ .f32 0x00000000#32),
    TRef.unary (.of main_cst_2 : TRef sig ⟨S_, .f32⟩) main_call0.v0 id,
    TRef.unary main_call0.v0 main_call0.v1 (broadcastInDim S65536x64 ![] bcast_S_S65536x64),
    TRef.ternary (.of main_v11 : TRef sig ⟨S65536x64, .i1⟩) main_call0.v1 (.of main_v12 : TRef sig ⟨S65536x64, .f32⟩) main_call0.v2 select,
    nullary main_cst_3 (constant S_ .f32 0x00000000#32),
    binary main_v13 main_cst_3 main_v14 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v14 main_v15 (Host.log : (⟨S65536, .f32⟩ : BufTy).Contents (Elt F) → (⟨S65536, .f32⟩ : BufTy).Contents (Elt F)),
    unary main_v11 main_v16 ((extui 32 · natLt_1_32) : (⟨S65536x64, .i1⟩ : BufTy).Contents (Elt F) → (⟨S65536x64, .i32⟩ : BufTy).Contents (Elt F)),
    nullary main_c_4 (constantI S_ 32 0#32),
    binary main_v16 main_c_4 main_v17 ((fun x v => Host.reduce IntOp.addi x v reducesTo_S65536x64_S65536_d1 h_S_) : (⟨S65536x64, .i32⟩ : BufTy).Contents (Elt F) → (⟨S_, .i32⟩ : BufTy).Contents (Elt F) → (⟨S65536, .i32⟩ : BufTy).Contents (Elt F)),
    unary main_v17 main_v18 (sitofp .f32 : (⟨S65536, .i32⟩ : BufTy).Contents (Elt F) → (⟨S65536, .f32⟩ : BufTy).Contents (Elt F)),
    nullary main_cst_5 (constant S_ .f32 0x00000000#32),
    TRef.unary (.of main_cst_5 : TRef sig ⟨S_, .f32⟩) main_call1.v0 id,
    TRef.unary main_call1.v0 main_call1.v1 (broadcastInDim S65536x64 ![] bcast_S_S65536x64),
    TRef.ternary (.of main_v11 : TRef sig ⟨S65536x64, .i1⟩) (.of main_v2 : TRef sig ⟨S65536x64, .f32⟩) main_call1.v1 main_call1.v2 select,
    nullary main_cst_6 (constant S_ .f32 0x00000000#32),
    binary main_v19 main_cst_6 main_v20 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    binary main_v18 main_v15 main_v21 (mulf : (⟨S65536, .f32⟩ : BufTy).Contents (Elt F) → (⟨S65536, .f32⟩ : BufTy).Contents (Elt F) → (⟨S65536, .f32⟩ : BufTy).Contents (Elt F)),
    binary main_v20 main_v21 main_v22 (subf : (⟨S65536, .f32⟩ : BufTy).Contents (Elt F) → (⟨S65536, .f32⟩ : BufTy).Contents (Elt F) → (⟨S65536, .f32⟩ : BufTy).Contents (Elt F)),
    binary main_v22 main_v18 main_v23 (Host.divf : (⟨S65536, .f32⟩ : BufTy).Contents (Elt F) → (⟨S65536, .f32⟩ : BufTy).Contents (Elt F) → (⟨S65536, .f32⟩ : BufTy).Contents (Elt F)),
    nullary main_c_7 (constantI S_ 32 0#32),
    unary main_c_7 main_v24 (broadcastInDim S65536 ![] bcast_S_S65536 : (⟨S_, .i32⟩ : BufTy).Contents (Elt F) → (⟨S65536, .i32⟩ : BufTy).Contents (Elt F)),
    binary main_arg0 main_v24 main_v25 (cmpi .ne : (⟨S65536, .i32⟩ : BufTy).Contents (Elt F) → (⟨S65536, .i32⟩ : BufTy).Contents (Elt F) → (⟨S65536, .i1⟩ : BufTy).Contents (Elt F)),
    unary main_v25 main_v26 (Host.reverse [0] : (⟨S65536, .i1⟩ : BufTy).Contents (Elt F) → (⟨S65536, .i1⟩ : BufTy).Contents (Elt F)),
    TRef.nullary main_call2.v0 (iotaInDim S65536 32 0),
    TRef.nullary main_call2.c (constantI S_ 1 0#1),
    TRef.nullary main_call2.c_0 (constantI S_ 32 0#32),
    TRef.quaternary (.of main_v26 : TRef sig ⟨S65536, .i1⟩) main_call2.v0 main_call2.c main_call2.c_0 main_call2.v1_0 (fun x y u v j => (Host.reduce2 reducer_argmax_i1_i32 x y u v reducesTo_S65536_S_d0 h_S_ j).1),
    TRef.quaternary (.of main_v26 : TRef sig ⟨S65536, .i1⟩) main_call2.v0 main_call2.c main_call2.c_0 main_call2.v1_1 (fun x y u v j => (Host.reduce2 reducer_argmax_i1_i32 x y u v reducesTo_S65536_S_d0 h_S_ j).2),
    nullary main_c_8 (constantI S_ 32 65535#32),
    binary main_c_8 main_v27 main_v28 (subi : (⟨S_, .i32⟩ : BufTy).Contents (Elt F) → (⟨S_, .i32⟩ : BufTy).Contents (Elt F) → (⟨S_, .i32⟩ : BufTy).Contents (Elt F)),
    nullary main_c_9 (constantI S_ 1 0#1),
    binary main_v25 main_c_9 main_v29 ((fun x v => Host.reduce IntOp.ori x v reducesTo_S65536_S_d0 h_S_) : (⟨S65536, .i1⟩ : BufTy).Contents (Elt F) → (⟨S_, .i1⟩ : BufTy).Contents (Elt F) → (⟨S_, .i1⟩ : BufTy).Contents (Elt F)),
    nullary main_c_10 (constantI S_ 32 0#32),
    binary main_v28 main_c_10 main_v30 (cmpi .slt : (⟨S_, .i32⟩ : BufTy).Contents (Elt F) → (⟨S_, .i32⟩ : BufTy).Contents (Elt F) → (⟨S_, .i1⟩ : BufTy).Contents (Elt F)),
    nullary main_c_11 (constantI S_ 32 65536#32),
    binary main_v28 main_c_11 main_v31 (addi : (⟨S_, .i32⟩ : BufTy).Contents (Elt F) → (⟨S_, .i32⟩ : BufTy).Contents (Elt F) → (⟨S_, .i32⟩ : BufTy).Contents (Elt F)),
    ternary main_v30 main_v31 main_v28 main_v32 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- @main's last 7 operations: the slice of one element at the wrapped position, its reshape to a scalar, the
    division by 65536, and the scalar selection's conversion and select. -/
abbrev ops₂ : List (HloOp τ sig (Elt F)) :=
  [ unaryIndexed main_v23 ![main_v32] ⟨S_, .i32⟩ main_v33 ((fun x i => Host.dynamicSlice S1 x (fun k => (i k (Shape.Idx.first h_S_)).toInt) sliceFits_S65536_S1) : (⟨S65536, .f32⟩ : BufTy).Contents (Elt F) → (Fin 1 → (⟨S_, .i32⟩ : BufTy).Contents (Elt F)) → (⟨S1, .f32⟩ : BufTy).Contents (Elt F)),
    reshape main_v33 main_v34 rfl shapeCasts_S1_S_,
    nullary main_cst_12 (constant S_ .f32 0x47800000#32),
    binary main_v34 main_cst_12 main_v35 (Host.divf : (⟨S_, .f32⟩ : BufTy).Contents (Elt F) → (⟨S_, .f32⟩ : BufTy).Contents (Elt F) → (⟨S_, .f32⟩ : BufTy).Contents (Elt F)),
    nullary main_cst_13 (constant S_ .f32 0x00000000#32),
    TRef.unary (.of main_cst_13 : TRef sig ⟨S_, .f32⟩) main_call3.v0 id,
    TRef.ternary (.of main_v29 : TRef sig ⟨S_, .i1⟩) (.of main_v35 : TRef sig ⟨S_, .f32⟩) main_call3.v0 main_call3.v1 select ]

/-- @main's 62 operations, in order. -/
abbrev ops : List (HloOp τ sig (Elt F)) := ops₁ ++ ops₂

-- sixty-two binds re-associated: the rewrite under the chain recurses once per statement
set_option maxRecDepth 2048 in
/-- @main is that straight line: the callees' definitions unfolded at their calls, both sides are one chain
    of operation steps once sequencing is re-associated. -/
theorem main_eq (c : Dev nD) : main (F := F) c = seq ops := by
  simp only [main, fn_where.body, fn_where_0.body, fn_argmax.body, fn_where_1.body, ops, ops₁, ops₂,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops₁_sub : (ops₁ : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., binary_bufs_sub .., unary_bufs_sub .., unary_bufs_sub .., nullary_bufs_sub .., binary_bufs_sub .., unary_bufs_sub .., nullary_bufs_sub .., unary_bufs_sub .., unary_bufs_sub .., ternary_bufs_sub .., nullary_bufs_sub .., binary_bufs_sub .., binary_bufs_sub .., binary_bufs_sub .., binary_bufs_sub .., nullary_bufs_sub .., unary_bufs_sub .., binary_bufs_sub .., unary_bufs_sub .., nullary_bufs_sub .., nullary_bufs_sub .., nullary_bufs_sub .., quaternary_bufs_sub .., quaternary_bufs_sub .., nullary_bufs_sub .., binary_bufs_sub .., nullary_bufs_sub .., binary_bufs_sub .., nullary_bufs_sub .., binary_bufs_sub .., nullary_bufs_sub .., binary_bufs_sub .., ternary_bufs_sub ..⟩

theorem ops₂_sub : (ops₂ : List (HloOp τ sig (Elt F))).Forall fun op => op.bufs ⊆ tcRefs τ sig :=
  ⟨unaryIndexed_bufs_sub .., reshape_bufs_sub .., nullary_bufs_sub .., binary_bufs_sub .., nullary_bufs_sub .., unary_bufs_sub .., ternary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp ops₁_sub op) (List.forall_iff_forall_mem.mp ops₂_sub op)

/-! ## The fold of the operations -/

/-- Two lines run one after the other: the second folds over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- An operation with ONE index operand: after it the result buffer holds the function's value at the operand's
    contents and the one-element family of the index operand's contents. -/
theorem unaryIndexed_one_result {Val : EltTy → Type} (a r y : Ref sig .tc) (T : BufTy)
    (f : a.ty.Contents Val → (Fin 1 → T.Contents Val) → y.ty.Contents Val) (hT ha hix hy) (V : Valuation τ sig Val) :
    (unaryIndexed (τ := τ) a ![r] T y f hT ha hix hy).result V (no_index (Proc.devRef .tc y))
      = f (V (Proc.devRef .tc a)) ![cast (congrArg (fun U : BufTy => U.Contents Val) (hT 0 : r.ty = T)) (V (Proc.devRef .tc r))] := by
  rw [unaryIndexed_result]; congr 1; funext k; fin_cases k; rfl

/-- After the first line the quotient's buffer holds `val_v23` of the arguments' contents: each operation's result at its own buffer is its function's value, at any other buffer what was there, and the composed term is `val_v23` unfolded (the typed references' transports are the identity at these literal references). -/
theorem st_v23 (V : Valuation τ sig (Elt F)) :
    after ops₁ V (Proc.devRef .tc main_v23) = val_v23 (V (Proc.devRef .tc main_arg0)) (V (Proc.devRef .tc main_arg1)) (V (Proc.devRef .tc main_arg2)) (V (Proc.devRef .tc main_arg3)) := by
  simp (disch := decide) only [after_cons, after_nil,
    nullary_result', unary_result', binary_result', ternary_result', quaternary_result', reshape_result',
    nullary_result_ne', unary_result_ne', binary_result_ne', ternary_result_ne', quaternary_result_ne', reshape_result_ne']
  simp only [TRef.ofBuf, TRef.toBuf, cast_eq]
  rfl

/-- After the first line the disjunction's buffer holds `val_v29` of the labels' contents. -/
theorem st_v29 (V : Valuation τ sig (Elt F)) :
    after ops₁ V (Proc.devRef .tc main_v29) = val_v29 (V (Proc.devRef .tc main_arg0)) := by
  simp (disch := decide) only [after_cons, after_nil,
    nullary_result', unary_result', binary_result', ternary_result', quaternary_result', reshape_result',
    nullary_result_ne', unary_result_ne', binary_result_ne', ternary_result_ne', quaternary_result_ne', reshape_result_ne']
  rfl

/-- After the first line the wrapped position's buffer holds `val_v32` of the labels' contents. -/
theorem st_v32 (V : Valuation τ sig (Elt F)) :
    after ops₁ V (Proc.devRef .tc main_v32) = val_v32 (V (Proc.devRef .tc main_arg0)) := by
  simp (disch := decide) only [after_cons, after_nil,
    nullary_result', unary_result', binary_result', ternary_result', quaternary_result', reshape_result',
    nullary_result_ne', unary_result_ne', binary_result_ne', ternary_result_ne', quaternary_result_ne', reshape_result_ne']
  simp only [TRef.ofBuf, TRef.toBuf, cast_eq]
  rfl

/-- The last line, from any contents `W` whose quotient, disjunction and wrapped position are `q`, `d` and `p`:
    the result buffer ends at the selection, under `d`, of the element of `q` at `p` divided by 65536, against zero. -/
theorem tail_eq (W : Valuation τ sig (Elt F)) (q : (⟨S65536, .f32⟩ : BufTy).Contents (Elt F)) (d : (⟨S_, .i1⟩ : BufTy).Contents (Elt F)) (p : (⟨S_, .i32⟩ : BufTy).Contents (Elt F))
    (hq : W (Proc.devRef .tc main_v23) = q) (hd : W (Proc.devRef .tc main_v29) = d) (hp : W (Proc.devRef .tc main_v32) = p) :
    after ops₂ W (Proc.devRef .tc main_v36)
      = select d (Host.divf (shapeCast S_ (Host.dynamicSlice S1 q
            (fun k => ((![p] : Fin 1 → (⟨S_, .i32⟩ : BufTy).Contents (Elt F)) k (Shape.Idx.first h_S_)).toInt) sliceFits_S65536_S1) shapeCasts_S1_S_)
          (constant S_ .f32 0x47800000#32)) (id (constant S_ .f32 0x00000000#32)) := by
  subst hq hd hp
  simp (disch := decide) only [after_cons, after_nil,
    nullary_result', unary_result', binary_result', ternary_result', quaternary_result', reshape_result',
    unaryIndexed_one_result,
    nullary_result_ne', unary_result_ne', binary_result_ne', ternary_result_ne', quaternary_result_ne', reshape_result_ne',
    unaryIndexed_result_ne']
  rfl

/-- The fold of all the operations at the result buffer is `result` of the arguments' contents. -/
theorem out_eq (V : Valuation τ sig (Elt F)) :
    after ops V (Proc.devRef .tc main_v36)
      = result (V (Proc.devRef .tc main_arg0)) (V (Proc.devRef .tc main_arg1)) (V (Proc.devRef .tc main_arg2)) (V (Proc.devRef .tc main_arg3)) := by
  rw [show (ops : List (HloOp τ sig (Elt F))) = ops₁ ++ ops₂ from rfl, after_append]
  exact tail_eq _ _ _ _ (st_v23 V) (st_v29 V) (st_v32 V)

/-! The arguments' buffers are written by no operation. -/

theorem arg0_eq (V : Valuation τ sig (Elt F)) :
    after ops V (Proc.devRef .tc main_arg0) = V (Proc.devRef .tc main_arg0) := by
  simp (disch := decide) only [ops, ops₁, ops₂, List.cons_append, List.nil_append, after_cons, after_nil,
    nullary_result_ne', unary_result_ne', binary_result_ne', ternary_result_ne', quaternary_result_ne', reshape_result_ne',
    unaryIndexed_result_ne']

theorem arg1_eq (V : Valuation τ sig (Elt F)) :
    after ops V (Proc.devRef .tc main_arg1) = V (Proc.devRef .tc main_arg1) := by
  simp (disch := decide) only [ops, ops₁, ops₂, List.cons_append, List.nil_append, after_cons, after_nil,
    nullary_result_ne', unary_result_ne', binary_result_ne', ternary_result_ne', quaternary_result_ne', reshape_result_ne',
    unaryIndexed_result_ne']

theorem arg2_eq (V : Valuation τ sig (Elt F)) :
    after ops V (Proc.devRef .tc main_arg2) = V (Proc.devRef .tc main_arg2) := by
  simp (disch := decide) only [ops, ops₁, ops₂, List.cons_append, List.nil_append, after_cons, after_nil,
    nullary_result_ne', unary_result_ne', binary_result_ne', ternary_result_ne', quaternary_result_ne', reshape_result_ne',
    unaryIndexed_result_ne']

theorem arg3_eq (V : Valuation τ sig (Elt F)) :
    after ops V (Proc.devRef .tc main_arg3) = V (Proc.devRef .tc main_arg3) := by
  simp (disch := decide) only [ops, ops₁, ops₂, List.cons_append, List.nil_append, after_cons, after_nil,
    nullary_result_ne', unary_result_ne', binary_result_ne', ternary_result_ne', quaternary_result_ne', reshape_result_ne',
    unaryIndexed_result_ne']

/-! ## The run -/

/-- On every device, for any float values, from any memory with zero counters: every weakly fair execution of
    @main terminates with the result buffer at `result` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v36).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.LibDynSlice.lean ====
/-
  A clamped dynamic slice of one row, or of one entry, read at an index.

  `lax.dynamic_slice` (and jnp's `x[i]` at a traced scalar `i`) prints as a `stablehlo.dynamic_slice`: each start
  index is read as a signed integer and clamped so that the block fits, `clamp(0, start, extent − block extent)`.
  For a block of one row of an [N, M] array the row start is clamped into [0, N − 1] and the column start into
  [0, 0], so the column start does not matter and the result's entry (0, k) is the array's entry (r, k) with r the
  clamped row start. For a block of one entry of an [N] vector the one entry is the vector's at the clamped start.
  Nothing here names a program.
-/
import Idealize.ShloMosaic.PureOps.ShapeOps
import Idealize.ShloMosaic.Lib.ValueIdx
import Idealize.ShloMosaic.Lib.Pipeline.Value

namespace Cert.Lib

open Idealize.ShloMosaic Idealize.ShloMosaic.ValueIdx

/-- A signed start clamped into the rows `0 … n − 1`. -/
def clampRow (n : Nat) (s : Int) : Nat := (min (max s 0) ((n - 1 : Nat) : Int)).toNat

theorem clampRow_lt {n : Nat} (hn : 0 < n) (s : Int) : clampRow n s < n := by
  unfold clampRow; omega

/-- ONE ROW of an [N, M] array sliced at signed starts: entry (u, k) is the array's at (the clamped row start, k). -/
theorem dynamicSlice_row_apply {α : Type} {N M : Nat} (hN : 0 < N) (x : (⟨2, ![N, M]⟩ : Shape).Idx → α)
    (start : Fin 2 → Int) (h : (⟨2, ![N, M]⟩ : Shape).Slices (fun _ => 0) ⟨2, ![1, M]⟩) (u : Fin 1) (k : Fin M) :
    Host.dynamicSlice ⟨2, ![1, M]⟩ x start h (ix2 u k) = x (ix2 ⟨clampRow N (start 0), clampRow_lt hN _⟩ k) := by
  unfold Host.dynamicSlice
  refine extractStridedSlice_apply _ x _ _ _ fun a => ?_
  have hu : u.val = 0 := by omega
  match a with
  | ⟨0, _⟩ =>
    show clampRow N (start 0) = (min (max (start 0) 0) ((N - 1 : Nat) : Int)).toNat + u.val
    rw [hu]; rfl
  | ⟨1, _⟩ =>
    show k.val = (min (max (start 1) 0) ((M - M : Nat) : Int)).toNat + k.val
    rw [Nat.sub_self]; omega

/-- ONE ENTRY of an [N] vector sliced at a signed start: the vector's at the clamped start. -/
theorem dynamicSlice_entry_apply {α : Type} {N : Nat} (hN : 0 < N) (x : (⟨1, ![N]⟩ : Shape).Idx → α)
    (start : Fin 1 → Int) (h : (⟨1, ![N]⟩ : Shape).Slices (fun _ => 0) ⟨1, ![1]⟩) (u : Fin 1) :
    Host.dynamicSlice ⟨1, ![1]⟩ x start h (ix1 u) = x (ix1 ⟨clampRow N (start 0), clampRow_lt hN _⟩) := by
  unfold Host.dynamicSlice
  refine extractStridedSlice_apply _ x _ _ _ fun a => ?_
  have hu : u.val = 0 := by omega
  match a with
  | ⟨0, _⟩ =>
    show clampRow N (start 0) = (min (max (start 0) 0) ((N - 1 : Nat) : Int)).toNat + u.val
    rw [hu]; rfl

/-- The row a gather's clamp picks (a signed index read to a natural number, then capped) is the clamped start. -/
theorem min_toNat_eq_clampRow (n : Nat) (s : Int) : min s.toNat (n - 1) = clampRow n s := by
  unfold clampRow; omega

end Cert.Lib
-- ==== Proof.LibScalarCast.lean ====
/-
  A one-entry array reshaped to a scalar reads its one entry.

  A rank-0 array has one index, and so have the shapes [1] and [1, 1]; a reshape between shapes of one entry
  carries the entry across. Nothing here names a program.
-/
import Idealize.ShloMosaic.Lib.Pipeline.Value
import Idealize.ShloMosaic.Lib.ValueIdx

namespace Cert.Lib

open Idealize.ShloMosaic Idealize.ShloMosaic.ValueIdx

/-- The one index of a rank-0 array is at row-major position zero. -/
theorem rowMajor_scalar (j : (⟨0, ![]⟩ : Shape).Idx) : ((⟨0, ![]⟩ : Shape).rowMajor j).val = 0 := by
  have h1 := ((⟨0, ![]⟩ : Shape).rowMajor j).isLt
  have h2 : (⟨0, ![]⟩ : Shape).numel = 1 := rfl
  omega

/-- A [1] array reshaped to a scalar reads its entry. -/
theorem shapeCast_1_scalar_apply {α : Type} (x : (⟨1, ![1]⟩ : Shape).Idx → α)
    (h : (⟨1, ![1]⟩ : Shape).ShapeCasts ⟨0, ![]⟩) (j : (⟨0, ![]⟩ : Shape).Idx) :
    shapeCast ⟨0, ![]⟩ x h j = x (ix1 (0 : Fin 1)) :=
  shapeCast_apply x h j (ix1 0) (by rw [Shape.rowMajor_val_one, rowMajor_scalar]; rfl)

/-- A [1, 1] array reshaped to a scalar reads its entry. -/
theorem shapeCast_11_scalar_apply {α : Type} (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) :=
  shapeCast_apply x h j (ix2 0 0) (by rw [Shape.rowMajor_val_two, rowMajor_scalar]; rfl)

end Cert.Lib
-- ==== Proof.KIRead.lean ====
/- The buffers the kernel launch reads, read at an index, at the exact values: the row of the features at the sample
   the index chain picks, the transposed table, and the mask row as the 0/1 floats of the bits "the table row of
   that sample's wrapped and clamped label is nonzero". -/
import proofs.«404133_j52647709114635_2_alg».proof.Proof.KIVal
import proofs.«404133_j52647709114635_2_alg».proof.Proof.LibDynSlice
import proofs.«404133_j52647709114635_2_alg».proof.Proof.LibScalarCast
import Idealize.ShloMosaic.Lib.ValueIdx
import Idealize.ShloMosaic.Lib.ValueLayout
import Idealize.ShloMosaic.Lib.Pipeline.Value

noncomputable section

namespace Cert.KernelIdeal.Rd

open Cert.KernelIdeal Cert.KernelIdeal.Gen Cert.KernelIdeal.Val
open Idealize.ShloMosaic Idealize.ShloMosaic.ValueIdx Cert.Lib

variable (lab : IVec S65536 32) (mot : FVec Ideal S65536x1024 .f32) (au : FVec Ideal S64x1024 .f32) (ex : IVec S8x64 32)

-- the two integer chains are long folds over the labels: nothing below opens them
attribute [local irreducible] sIdx sWrap

/-- A signed start clamped into the batch. -/
def sampOf (s : Int) : Fin 65536 := ⟨clampRow 65536 s, clampRow_lt (by decide) _⟩

/-- The sample the index chain picks: the start index read signed and clamped into the batch. -/
def samp : Fin 65536 := sampOf (sIdx (F := Ideal) lab (Shape.Idx.first h_S_)).toInt

/-- The row slice at (0, k) is the features' entry (sample, k). -/
theorem row_apply (k : Fin 1024) : sRow (F := Ideal) lab mot (ix2 0 k) = mot (ix2 (samp lab) k) := by
  unfold sRow
  refine (dynamicSlice_row_apply (N := 65536) (M := 1024) (by decide) mot
    (fun k => (sRowStart (F := Ideal) lab k (Shape.Idx.first h_S_)).toInt) sliceFits_S65536x1024_S1x1024 0 k).trans ?_
  exact congrArg (fun s : Int => mot (ix2 (sampOf s) k))
    (show BitVec.toInt (sRowStart (F := Ideal) lab 0 (Shape.Idx.first h_S_)) = BitVec.toInt (sIdx (F := Ideal) lab (Shape.Idx.first h_S_)) by
      rw [sRowStart, Matrix.cons_val_zero])

/-- The label the program slices is the sample's. -/
theorem label_apply (j : S_.Idx) : sLabel (F := Ideal) lab j = lab (ix1 (samp lab)) := by
  unfold sLabel
  refine (shapeCast_1_scalar_apply _ _ j).trans ?_
  exact dynamicSlice_entry_apply (N := 65536) (by decide) lab
    (fun k => ((fun _ : Fin 1 => sIdx (F := Ideal) lab) k (Shape.Idx.first h_S_)).toInt) sliceFits_S65536_S1 0

/-- The transposed table at (k, a) is the table at (a, k). -/
theorem tab_apply (k : Fin 1024) (a : Fin 64) : sTab (F := Ideal) au (ix2 k a) = au (ix2 a k) := by
  unfold sTab
  exact transpose_ix2_apply au _ k a

/-- A signed start clamped into the table's rows. -/
def maskRowOf (s : Int) : Fin 8 := ⟨clampRow 8 s, clampRow_lt (by decide) _⟩

/-- The table row the mask is read from: the wrapped label read signed and clamped into the table. -/
def maskRow : Fin 8 := maskRowOf (sWrap (F := Ideal) lab (Shape.Idx.first h_S_)).toInt

/-- The mask row at (0, a): the 0/1 float of "the table is nonzero at (mask row, a)". -/
theorem mask_apply (a : Fin 64) :
    sMask (F := Ideal) lab ex (ix2 0 a)
      = ((((IntOp.cmpi .ne (ex (ix2 (maskRow lab) a)) 0#32).toNat : ℕ) : ℝ) : EReal) := by
  unfold sMask
  refine (shapeCast_a_1a_apply _ _ 0 a).trans ?_
  show ((((IntOp.cmpi .ne (sExRow (F := Ideal) lab ex (ix1 a)) 0#32).toNat : ℕ) : ℝ) : EReal) = _
  refine congrArg (fun w : BitVec 32 => ((((IntOp.cmpi .ne w 0#32).toNat : ℕ) : ℝ) : EReal)) ?_
  unfold sExRow
  refine (shapeCast_1a_a_apply _ _ a).trans ?_
  refine (dynamicSlice_row_apply (N := 8) (M := 64) (by decide) ex
    (fun k => (sMaskStart (F := Ideal) lab k (Shape.Idx.first h_S_)).toInt) sliceFits_S8x64_S1x64 0 a).trans ?_
  exact congrArg (fun s : Int => ex (ix2 (maskRowOf s) a))
    (show BitVec.toInt (sMaskStart (F := Ideal) lab 0 (Shape.Idx.first h_S_)) = BitVec.toInt (sWrap (F := Ideal) lab (Shape.Idx.first h_S_)) by
      rw [sMaskStart, Matrix.cons_val_zero])

end Cert.KernelIdeal.Rd

end
-- ==== Proof.Spec.lean ====
/-
  The per-sample loss both programs compute, as one scalar function.

  For one sample: 64 scaled dot products d (the sample's feature row against each of the 64 table rows, scaled by the
  inverse temperature), 64 mask bits p (which table rows are positive for the sample's label) and the number n of
  set bits. The loss is ( Σ over positive a of d a  −  n · log ( Σ over negative a of exp (d a) ) ) / n, every
  operation the exact one on the extended reals (the quotient and the logarithm with the model's conventions at
  zero and at the infinities).
-/
import Idealize.ShloMosaic.PureOps.Ideal
import Idealize.ShloMosaic.PureOps.Vector

noncomputable section

namespace Cert.Spec

open Idealize.ShloMosaic
open scoped BigOperators

/-- The loss of one sample from its scaled dot products, its mask bits and their count. -/
def rowLoss (d : Fin 64 → EReal) (p : Fin 64 → BitVec 1) (n : EReal) : EReal :=
  Ideal.div ((∑ a : Fin 64, Scalar.select (p a) (d a) (0 : EReal))
      - n * Ideal.log (∑ a : Fin 64, Scalar.select (p a) (0 : EReal) (Ideal.exp (d a)))) n

end Cert.Spec

end
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.KIRow.lean ====
/-
  The kernel body's arithmetic, read at the one entry of its output block, at the exact values.

  The body multiplies the feature row [1, 1024] by the transposed table [1024, 64] (a change of float format on the
  way in is the identity here), scales each of the 64 products by the named inverse temperature, compares the mask
  row with one half, sums over the 64 lanes the masked products, the masked exponentials and the mask itself, and
  combines the three sums. At the one output entry this is the per-sample loss of the 64 scaled products
  Σₖ row(0,k) · table(k,a) · c, the bits "mask(0,a) > 1/2" and the count Σₐ mask(0,a).
-/
import proofs.«404133_j52647709114635_2_alg».proof.Proof.Gen.KernelIdeal.Skeleton
import proofs.«404133_j52647709114635_2_alg».proof.Proof.Spec
import proofs.«404133_j52647709114635_2_alg».proof.Proof.LibRowTile
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.Row

open Cert.KernelIdeal Cert.KernelIdeal.Gen Idealize.ShloMosaic Idealize.ShloMosaic.ValueIdx
open scoped BigOperators

/-- The named inverse temperature denotes the reciprocal of the reference's divisor, exactly. -/
theorem inv_temp : Named.named (F := Ideal) κ "inv_temp" (φ := .f32) 0x41649249#32 = ((134217728 / 9395241 : ℝ) : EReal) :=
  IdealRules.named_const.ideal_named_scalar _ _ _ _ rfl

/-- The body's product is a plain [1, 1024] · [1024, 64] contraction. -/
theorem dot_plain : Cert.Lib.IsPlain dot_S1x1024_S1024x64_S1x64_1_0_0_1_n_n :=
  ⟨rfl, rfl, rfl, rfl, rfl, rfl, rfl, rfl⟩

/-- A sum over the 64 lanes, kept as a [1, 1] block, read at its entry. -/
theorem laneSum (v : FVec Ideal S1x64 .f32) (hacc : (0x00000000#32 : BitVec 32) = 0x00000000#32) :
    shapeCast S1x1 (multiReduction .add [1] S1 v 0x00000000#32 reduces_S1x64_S1 (.inl rfl) hacc) shapeCasts_S1_S1x1 (ix2 0 0)
      = ∑ a : Fin 64, v (ix2 0 a) := by
  refine (shapeCast_a_1a_apply _ _ 0 0).trans ?_
  refine (Ideal.multiReduction_add_single v 0x00000000#32 reduces_S1x64_S1 (.inl rfl) hacc (ix1 0)).trans ?_
  exact Finset.sum_congr rfl fun a _ => congrArg v (funext fun ax => Fin.ext (by
    match ax with
    | ⟨0, _⟩ => rfl
    | ⟨1, _⟩ => rfl))

/-- The scaled product of the row with table column a. -/
theorem dots_apply (x0 : FVec Ideal S1x1024 .f32) (x3 : FVec Ideal S1024x64 .bf16) (a : Fin 64) :
    mulf (matmul dot_S1x1024_S1024x64_S1x64_1_0_0_1_n_n none (truncf .bf16 x0 bitsLt_bf16_f32) x3 (constant S1x64 .f32 0x00000000#32))
        (broadcast S1x64 (Named.named (F := Ideal) κ "inv_temp" (φ := .f32) 0x41649249#32)) (ix2 0 a)
      = (∑ k : Fin 1024, x0 (ix2 0 k) * x3 (ix2 k a)) * ((134217728 / 9395241 : ℝ) : EReal) := by
  show (FloatOps.matmul dot_S1x1024_S1024x64_S1x64_1_0_0_1_n_n none (truncf .bf16 x0 bitsLt_bf16_f32) x3 (constant S1x64 .f32 0x00000000#32) (ix2 0 a))
      * Named.named (F := Ideal) κ "inv_temp" (φ := .f32) 0x41649249#32 = _
  rw [inv_temp]
  refine congrArg (· * (((134217728 / 9395241 : ℝ)) : EReal)) ?_
  refine (Ideal.matmul_constant_zero_apply _ none _ _ (ix2 0 a)).trans ?_
  exact dot_plain.sum_eq (truncf .bf16 x0 bitsLt_bf16_f32) x3 (ix2 0 a)

/-- THE PAYLOAD AT ITS ENTRY is the per-sample loss of the row's scaled products, the mask's bits and its sum. -/
theorem pay_apply (x0 : FVec Ideal S1x1024 .f32) (x3 : FVec Ideal S1024x64 .bf16) (x8 : FVec Ideal S1x64 .f32) :
    k0_pay1 (F := Ideal) x0 x3 x8 (ix2 0 0)
      = Cert.Spec.rowLoss
          (fun a => (∑ k : Fin 1024, x0 (ix2 0 k) * x3 (ix2 k a)) * ((134217728 / 9395241 : ℝ) : EReal))
          (fun a => Ideal.cmp .ogt (x8 (ix2 0 a)) (Ideal.ofBits .f32 0x3F000000#32))
          (∑ a : Fin 64, x8 (ix2 0 a)) := by
  unfold k0_pay1 Cert.Spec.rowLoss
  simp only [shapeCast_self]
  show Ideal.div (_ - _ * Ideal.log _) _ = _
  refine congrArg₂ Ideal.div (congrArg₂ (fun a b : EReal => a - b) ?_ (congrArg₂ (fun a b : EReal => a * b) ?_ (congrArg Ideal.log ?_))) ?_
  · refine (laneSum _ _).trans (Finset.sum_congr rfl fun a _ => ?_)
    show Scalar.select (Ideal.cmp .ogt (x8 (ix2 0 a)) (Ideal.ofBits .f32 0x3F000000#32))
      (mulf (matmul dot_S1x1024_S1024x64_S1x64_1_0_0_1_n_n none (truncf .bf16 x0 bitsLt_bf16_f32) x3 (constant S1x64 .f32 0x00000000#32))
        (broadcast S1x64 (Named.named (F := Ideal) κ "inv_temp" (φ := .f32) 0x41649249#32)) (ix2 0 a))
      (Ideal.ofBits .f32 0x00000000#32) = _
    rw [dots_apply, Ideal.ofBits_zero_f32]
  · exact laneSum x8 _
  · refine (laneSum _ _).trans (Finset.sum_congr rfl fun a _ => ?_)
    show Scalar.select (Ideal.cmp .ogt (x8 (ix2 0 a)) (Ideal.ofBits .f32 0x3F000000#32)) (Ideal.ofBits .f32 0x00000000#32)
      (Ideal.exp (mulf (matmul dot_S1x1024_S1024x64_S1x64_1_0_0_1_n_n none (truncf .bf16 x0 bitsLt_bf16_f32) x3 (constant S1x64 .f32 0x00000000#32))
        (broadcast S1x64 (Named.named (F := Ideal) κ "inv_temp" (φ := .f32) 0x41649249#32)) (ix2 0 a))) = _
    rw [dots_apply, Ideal.ofBits_zero_f32]
  · exact laneSum x8 _

end Cert.KernelIdeal.Row

end
-- ==== Proof.LibGatherRows.lean ====
/-
  A row gather read at an entry.

  jnp's `table[idx]` (or `jnp.take(table, idx, axis=0)`) over a rank-2 table [N, C] and a vector of E positions
  prints as a `stablehlo.gather` whose start indices are the [E, 1] column of positions, whose operand axis 0 is
  collapsed and start-indexed, whose operand axis 1 is the one offset axis (slice sizes [1, C]), with no batching
  axes and the index vector on axis 1.  Result entry (e, o) is the table's entry (r, o) where r is position e's
  start index read as a signed integer and clamped into [0, N − 1]: a negative index reads row 0, one past the
  end reads the last row.  So the result's row e is a whole row of the table, chosen by position e alone.
-/
import Idealize.ShloMosaic.PureOps.ShapeOps
import Idealize.ShloMosaic.Lib.ValueIdx

namespace Cert.Lib

open Idealize.ShloMosaic Idealize.ShloMosaic.ValueIdx

/-- The dimension numbers of a row gather: operand [N, C], start indices [E, 1], result [E, C]. Their
    conditions `wf` are decided on a program's literal shapes. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the table at (r, o), r the start index of position e read signed and clamped
    into [0, N − 1]. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowGatherDims N C E wf) x idx (ix2 e o)
      = x (ix2 (⟨min (idx (ix2 e (0 : Fin 1))).toInt.toNat (N - 1), by omega⟩ : Fin N) o) := by
  unfold Host.gather
  congr 1
  funext a
  refine Fin.ext ?_
  match a with
  | ⟨0, _⟩ =>
    show (rowGatherDims N C E wf).start (ix2 e o) idx 0 + (rowGatherDims N C E wf).batchCoord (ix2 e o) 0
      + (rowGatherDims N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e o) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e o) idx 1 + (rowGatherDims N C E wf).batchCoord (ix2 e o) 1
      + (rowGatherDims N C E wf).offCoord (ix2 e o) 1 = o.val
    rw [GatherDims.batchCoord_eq_zero _ _ _ List.not_mem_nil]
    unfold GatherDims.start
    rw [dif_neg (show ¬ (1 : Fin 2) ∈ (rowGatherDims N C E wf).startIndexMap from
      fun h => absurd (List.mem_singleton.mp h) (by decide : (1 : Fin 2) ≠ 0))]
    unfold GatherDims.offCoord
    rw [dif_pos (show (1 : Fin 2) ∈ (rowGatherDims N C E wf).sKept from
      (GatherDims.mem_sKept _ _).mpr ⟨fun h => absurd (List.mem_singleton.mp h) (by decide : (1 : Fin 2) ≠ 0), List.not_mem_nil⟩)]
    simp only [Nat.zero_add, Nat.add_zero]
    rfl

end Cert.Lib
-- ==== Proof.RefRow.lean ====
/-
  The reference's per-sample quotient read at one sample, at the exact values.

  The reference multiplies the whole feature matrix [65536, 1024] by the table [64, 1024] along the shared axis,
  divides by the temperature, gathers for every sample the table row of the mask its (wrapped, clamped) label names,
  and reduces along each row: the masked sum of the quotients, the masked sum of their exponentials, the count of
  mask bits. At sample b this is the per-sample loss of the 64 quotients (Σₖ feat(b,k) · table(a,k)) / T, the bits
  "mask row of b's label is nonzero at a", and their count as a float.
-/
import proofs.«404133_j52647709114635_2_alg».proof.Proof.RefStages
import proofs.«404133_j52647709114635_2_alg».proof.Proof.Spec
import proofs.«404133_j52647709114635_2_alg».proof.Proof.LibRowTile
import proofs.«404133_j52647709114635_2_alg».proof.Proof.LibGatherRows
import proofs.«404133_j52647709114635_2_alg».proof.Proof.LibDynSlice
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefRow

open Cert.ReferenceIdeal Cert.ReferenceIdeal.Gen Cert.ReferenceIdeal.RefRun
open Idealize.ShloMosaic Idealize.ShloMosaic.ValueIdx
open scoped BigOperators

abbrev dotR := dot_S65536x1024_S64x1024_S65536x64_1_1_0_0_n_n

theorem dot_rank : dotR.contr.rank = 1 := rfl
theorem dot_size : dotR.contr.size ⟨0, by decide⟩ = 1024 := rfl

/-- The left operand is read at (the result's row, k). -/
theorem dot_lhs (j : S65536x64.Idx) (k : Fin 1024) :
    dotR.lhsIdx j ((contrEquiv1 dotR 1024 dot_rank dot_size).symm k) = ix2 (j 0) k := by
  funext ax; apply Fin.ext
  match ax with
  | ⟨0, _⟩ => exact Cert.Lib.lhsIdx_val_of_free dotR (a := (0 : Fin 2)) rfl rfl j _ Nat.zero_lt_two
  | ⟨1, _⟩ =>
    exact (dotR.lhsIdx_val_of_single (cl := (1 : Fin 2)) rfl j _).trans (contrEquiv1_symm_val dotR 1024 dot_rank dot_size k)

/-- The right operand is read at (the result's column, k): the two operands share their second axis. -/
theorem dot_rhs (j : S65536x64.Idx) (k : Fin 1024) :
    dotR.rhsIdx j ((contrEquiv1 dotR 1024 dot_rank dot_size).symm k) = ix2 (j 1) k := by
  funext ax; apply Fin.ext
  match ax with
  | ⟨0, _⟩ => exact Cert.Lib.rhsIdx_val_of_free dotR (a := (0 : Fin 2)) (al := (0 : Fin 2)) rfl rfl rfl rfl j _ Nat.one_lt_two
  | ⟨1, _⟩ =>
    exact (dotR.rhsIdx_val_of_single (cr := (1 : Fin 2)) rfl j _).trans (contrEquiv1_symm_val dotR 1024 dot_rank dot_size k)

/-- The quotient at (b, a): the product of feature row b with table row a, over the temperature. -/
theorem dots_apply (mot : FVec Ideal S65536x1024 .f32) (au : FVec Ideal S64x1024 .f32) (b : Fin 65536) (a : Fin 64) :
    val_v2 (F := Ideal) mot au (ix2 b a)
      = Ideal.div (∑ k : Fin 1024, mot (ix2 b k) * au (ix2 a k)) (Ideal.ofBits .f32 0x3D8F5C29#32) := by
  show Ideal.div (FloatOps.dotGeneral dotR none .single mot au (ix2 b a)) (Ideal.ofBits .f32 0x3D8F5C29#32) = _
  refine congrArg (fun z => Ideal.div z (Ideal.ofBits .f32 0x3D8F5C29#32)) ?_
  refine (Ideal.dotGeneral_apply dotR none .single mot au (ix2 b a)).trans ?_
  rw [← Equiv.sum_comp (contrEquiv1 dotR 1024 dot_rank dot_size).symm]
  exact Finset.sum_congr rfl fun k _ => congrArg₂ (· * ·) (congrArg mot (dot_lhs (ix2 b a) k)) (congrArg au (dot_rhs (ix2 b a) k))

/-- The column of wrapped labels read at (b, 0) is sample b's wrapped label. -/
theorem lab_col (v : IVec S65536 32) (b : Fin 65536) :
    broadcastInDim S65536x1 ![0] bcast_S65536_S65536x1_0 v (ix2 b (0 : Fin 1)) = v (ix1 b) :=
  broadcastInDim_apply _ _ v _ (ix1 b) fun a => by
    match a with
    | ⟨0, _⟩ =>
      show b.val = if (65536 : Nat) = 1 then 0 else b.val
      rw [if_neg (by decide)]

/-- The mask bit at (b, a): whether the table row that sample b's wrapped label names (clamped into the table) is
    nonzero at a. -/
theorem bit_apply (lab : IVec S65536 32) (ex : IVec S8x64 32) (b : Fin 65536) (a : Fin 64) :
    val_v11 (F := Ideal) lab ex (ix2 b a)
      = IntOp.cmpi .ne (ex (ix2 (⟨Cert.Lib.clampRow 8 (val_v7 (F := Ideal) lab (ix1 b)).toInt, Cert.Lib.clampRow_lt (by decide) _⟩ : Fin 8) a)) 0#32 := by
  show IntOp.cmpi .ne (Host.gather (Cert.Lib.rowGatherDims 8 64 65536 gather_S8x64_S65536x1_S65536x64_1_0_n_n_0_1_164_wf) ex
      (broadcastInDim S65536x1 ![0] bcast_S65536_S65536x1_0 (val_v7 (F := Ideal) lab)) (ix2 b a)) 0#32 = _
  rw [Cert.Lib.gather_rows_apply (by decide)]
  refine congrArg (fun r : Fin 8 => IntOp.cmpi .ne (ex (ix2 r a)) 0#32) (Fin.ext ?_)
  show min (broadcastInDim S65536x1 ![0] bcast_S65536_S65536x1_0 (val_v7 (F := Ideal) lab) (ix2 b (0 : Fin 1))).toInt.toNat (8 - 1) = _
  rw [lab_col]
  exact Cert.Lib.min_toNat_eq_clampRow 8 _

theorem reducesRow : S65536x64.Reduces [1] S65536 := by decide

/-- A row sum from zero, read at row b. -/
theorem rowSum (x : FVec Ideal S65536x64 .f32) (b : Fin 65536) :
    Host.reduceAdd (F := Ideal) x (constant S_ .f32 0x00000000#32) reducesTo_S65536x64_S65536_d1 h_S_ (ix1 b)
      = ∑ a : Fin 64, x (ix2 b a) := by
  show Ideal.hostReduceAdd reducesTo_S65536x64_S65536_d1 x (Ideal.ofBits .f32 0x00000000#32) (ix1 b) = _
  rw [Ideal.hostReduceAdd_single reducesTo_S65536x64_S65536_d1 reducesRow x _ (ix1 b), Ideal.ofBits_zero_f32, zero_add]
  exact Finset.sum_congr rfl fun a _ => congrArg x (funext fun ax => Fin.ext (by
    match ax with
    | ⟨0, _⟩ => rfl
    | ⟨1, _⟩ => rfl))

/-- The host's logarithm and quotient act entry by entry. -/
theorem hostLog_apply {s : Shape} (x : FVec Ideal s .f32) (i : s.Idx) : Host.log (F := Ideal) x i = Ideal.log (x i) := rfl
theorem hostDivf_apply {s : Shape} (x y : FVec Ideal s .f32) (i : s.Idx) :
    Host.divf (F := Ideal) x y i = Ideal.div (x i) (y i) := rfl
theorem hostExp_apply {s : Shape} (x : FVec Ideal s .f32) (i : s.Idx) : Host.exp (F := Ideal) x i = Ideal.exp (x i) := rfl

section Stages

variable (lab : IVec S65536 32) (mot : FVec Ideal S65536x1024 .f32) (au : FVec Ideal S64x1024 .f32) (ex : IVec S8x64 32)
  (b : Fin 65536)

/-- The negatives' exponentials: zero where the bit is set. -/
theorem v13_apply (a : Fin 64) :
    val_v13 (F := Ideal) lab mot au ex (ix2 b a)
      = Scalar.select (val_v11 (F := Ideal) lab ex (ix2 b a)) (0 : EReal) (Ideal.exp (val_v2 (F := Ideal) mot au (ix2 b a))) := by
  show Scalar.select (val_v11 (F := Ideal) lab ex (ix2 b a)) (Ideal.ofBits .f32 0x00000000#32)
      (Ideal.exp (val_v2 (F := Ideal) mot au (ix2 b a))) = _
  rw [Ideal.ofBits_zero_f32]

/-- The positives' quotients: zero where the bit is clear. -/
theorem v19_apply (a : Fin 64) :
    val_v19 (F := Ideal) lab mot au ex (ix2 b a)
      = Scalar.select (val_v11 (F := Ideal) lab ex (ix2 b a)) (val_v2 (F := Ideal) mot au (ix2 b a)) (0 : EReal) := by
  show Scalar.select (val_v11 (F := Ideal) lab ex (ix2 b a)) (val_v2 (F := Ideal) mot au (ix2 b a))
      (Ideal.ofBits .f32 0x00000000#32) = _
  rw [Ideal.ofBits_zero_f32]

theorem v14_apply : val_v14 (F := Ideal) lab mot au ex (ix1 b) = ∑ a : Fin 64, val_v13 (F := Ideal) lab mot au ex (ix2 b a) :=
  rowSum _ b

theorem v20_apply : val_v20 (F := Ideal) lab mot au ex (ix1 b) = ∑ a : Fin 64, val_v19 (F := Ideal) lab mot au ex (ix2 b a) :=
  rowSum _ b

theorem v15_apply : val_v15 (F := Ideal) lab mot au ex (ix1 b) = Ideal.log (val_v14 (F := Ideal) lab mot au ex (ix1 b)) := by
  unfold val_v15; exact hostLog_apply _ _
theorem v21_apply : val_v21 (F := Ideal) lab mot au ex (ix1 b)
    = val_v18 (F := Ideal) lab ex (ix1 b) * val_v15 (F := Ideal) lab mot au ex (ix1 b) := by
  unfold val_v21; exact mulf_apply _ _ _
theorem v22_apply : val_v22 (F := Ideal) lab mot au ex (ix1 b)
    = val_v20 (F := Ideal) lab mot au ex (ix1 b) - val_v21 (F := Ideal) lab mot au ex (ix1 b) := by
  unfold val_v22; exact subf_apply _ _ _
theorem v23_apply' : val_v23 (F := Ideal) lab mot au ex (ix1 b)
    = Ideal.div (val_v22 (F := Ideal) lab mot au ex (ix1 b)) (val_v18 (F := Ideal) lab ex (ix1 b)) := by
  unfold val_v23; exact hostDivf_apply _ _ _
theorem v23_apply : val_v23 (F := Ideal) lab mot au ex (ix1 b)
    = Ideal.div (val_v20 (F := Ideal) lab mot au ex (ix1 b)
        - val_v18 (F := Ideal) lab ex (ix1 b) * Ideal.log (val_v14 (F := Ideal) lab mot au ex (ix1 b)))
      (val_v18 (F := Ideal) lab ex (ix1 b)) := by
  rw [v23_apply', v22_apply, v21_apply, v15_apply]

/-- THE PER-SAMPLE QUOTIENT AT SAMPLE b is the per-sample loss of row b's quotients, mask bits and count. -/
theorem perSample_apply :
    val_v23 (F := Ideal) lab mot au ex (ix1 b)
      = Cert.Spec.rowLoss
          (fun a => Ideal.div (∑ k : Fin 1024, mot (ix2 b k) * au (ix2 a k)) (Ideal.ofBits .f32 0x3D8F5C29#32))
          (fun a => val_v11 (F := Ideal) lab ex (ix2 b a))
          (val_v18 (F := Ideal) lab ex (ix1 b)) := by
  rw [v23_apply, v20_apply, v14_apply]
  unfold Cert.Spec.rowLoss
  simp only [v13_apply, v19_apply, dots_apply]

end Stages

end Cert.ReferenceIdeal.RefRow

end
-- ==== Proof.LibCountRow.lean ====
/-
  The per-row count of a one-bit mask, at the exact values. An [n × m] mask of one-bit words, widened to 32
  bits and summed along each row by word addition from zero, gives at row p the number of set bits of that row
  (no wrap below 2³² columns); below 2³¹ columns that word reads the same signed and unsigned, so its signed
  conversion to an extended real is the sum over the row of the bits read as the reals 0 and 1.
-/
import Idealize.ShloMosaic.Lib.StableHlo.Predicate
import Idealize.ShloMosaic.PureOps.Ideal
import Idealize.ShloMosaic.Lib.ValueIdx

namespace Cert.Lib

open Idealize.ShloMosaic Idealize.ShloMosaic.ValueIdx Idealize.ShloMosaic.StableHlo.Predicate
open scoped BigOperators

/-- The inclusion of the reals in the extended reals carries a finite sum to the sum of the inclusions. -/
theorem coe_finset_sum {ι : Type} (s : Finset ι) (f : ι → ℝ) :
    ((∑ i ∈ s, f i : ℝ) : EReal) = ∑ i ∈ s, ((f i : ℝ) : EReal) := by
  induction s using Finset.cons_induction with
  | empty => rw [Finset.sum_empty, Finset.sum_empty, EReal.coe_zero]
  | cons a s ha ih => rw [Finset.sum_cons, Finset.sum_cons, EReal.coe_add, ih]

/-- A one-bit word is 0 or 1: the indicator of its being 1 is its value. -/
theorem bit_indicator (b : BitVec 1) : (if b = 1#1 then 1 else 0 : ℕ) = b.toNat := by
  rcases BitVec.eq_zero_or_eq_one b with rfl | rfl <;> rfl

/-- Row p, column q of an [n × m] rectangle, in either spelling of the index. -/
theorem ij_eq_ix2 {n m : Nat} (p : Fin n) (q : Fin m) : ij p q = ix2 p q := by
  funext b; match b with | ⟨0, _⟩ => rfl | ⟨1, _⟩ => rfl

/-- The per-row integer count of a one-bit mask, read signed and converted at the exact values, is the sum over
    the row of the bits read as the reals 0 and 1: the reduced word's value is the number of set bits of the
    row, at most m < 2³¹, so it reads the same signed and unsigned; a count is the sum of the indicators, an
    indicator of a one-bit word is its value, and the casts pass through the finite sum. -/
theorem sitofp_count_row {n m : Nat} (hm : m < 2 ^ 31) (mask : IVec ⟨2, ![n, m]⟩ 1) (hw : 1 < 32)
    (h : (⟨2, ![n, m]⟩ : Shape).ReducesTo [1] ⟨1, ![n]⟩) {u : Shape} (hu : 0 < u.numel) (p : Fin n) (φ : FTy) :
    FloatOps.sitofp (F := Ideal) φ (Host.reduce IntOp.addi (extui 32 mask hw) (constantI u 32 0#32) h hu (ix1 p))
      = ∑ q : Fin m, ((((mask (ix2 p q)).toNat : ℕ) : ℝ) : EReal) := by
  have hcard : (Host.reduce IntOp.addi (extui 32 mask hw) (constantI u 32 0#32) h hu (ix1 p)).toNat
      = (Finset.univ.filter fun q : Fin m => mask (ij p q) = 1#1).card :=
    toNat_reduce_count_cols (show m < 2 ^ 32 by omega) mask hw h hu (ix1 p)
  have hlt : (Host.reduce IntOp.addi (extui 32 mask hw) (constantI u 32 0#32) h hu (ix1 p)).toNat < 2 ^ 31 := by
    rw [hcard]; exact lt_of_le_of_lt (Finset.card_le_univ _) (by simpa using hm)
  show (((Host.reduce IntOp.addi (extui 32 mask hw) (constantI u 32 0#32) h hu (ix1 p)).toInt : ℝ) : EReal) = _
  rw [toInt_eq_toNat_of_lt hlt, Int.cast_natCast, hcard, Finset.card_filter, Nat.cast_sum, coe_finset_sum]
  refine Finset.sum_congr rfl fun q _ => ?_
  have e : (if mask (ij p q) = 1#1 then 1 else 0 : ℕ) = (mask (ix2 p q)).toNat := by
    rw [ij_eq_ix2, bit_indicator]
  exact congrArg (fun k : ℕ => ((k : ℝ) : EReal)) e

end Cert.Lib
-- ==== Proof.Consts.lean ====
/-
  The float constants the two programs spell, as the extended reals their words denote at the exact values, and the
  two scalar facts the comparison of the programs rests on: a 0/1 float exceeds one half exactly when its bit is set,
  and multiplying by the named reciprocal of the temperature is dividing by the temperature's word.
-/
import Idealize.ShloMosaic.PureOps.Ideal

noncomputable section

namespace Cert.Consts

open Idealize.ShloMosaic

/-- The word of one half denotes 1/2. -/
theorem ofBits_half : Ideal.ofBits .f32 0x3F000000#32 = ((1 / 2 : ℝ) : EReal) := by
  simp [Ideal.ofBits, Ideal.ieee, -EReal.coe_mul]; norm_num

/-- The word the reference divides by (the f32 nearest 0.07) denotes 9395241 / 2²⁷. -/
theorem ofBits_temp : Ideal.ofBits .f32 0x3D8F5C29#32 = ((9395241 / 134217728 : ℝ) : EReal) := by
  simp [Ideal.ofBits, Ideal.ieee, -EReal.coe_mul]; norm_num

/-- A one-bit word read as a float (0 or 1) exceeds one half exactly when the bit is set. -/
theorem cmp_bit (b : BitVec 1) :
    Ideal.cmp .ogt (((b.toNat : ℝ)) : EReal) (Ideal.ofBits .f32 0x3F000000#32) = b := by
  rw [ofBits_half]
  rcases BitVec.eq_zero_or_eq_one b with rfl | rfl
  · show BitVec.ofBool (decide ((((1 / 2 : ℝ)) : EReal) < (((0#1 : BitVec 1).toNat : ℝ) : EReal))) = 0#1
    have : ¬ ((((1 / 2 : ℝ)) : EReal) < (((0#1 : BitVec 1).toNat : ℝ) : EReal)) := by
      rw [EReal.coe_lt_coe_iff]; norm_num
    rw [decide_eq_false this]; rfl
  · show BitVec.ofBool (decide ((((1 / 2 : ℝ)) : EReal) < (((1#1 : BitVec 1).toNat : ℝ) : EReal))) = 1#1
    have : ((((1 / 2 : ℝ)) : EReal) < (((1#1 : BitVec 1).toNat : ℝ) : EReal)) := by
      rw [EReal.coe_lt_coe_iff]; norm_num
    rw [decide_eq_true this]; rfl

/-- Multiplying by the exact reciprocal of the temperature's word is dividing by that word, on every extended real. -/
theorem scale_eq (x : EReal) :
    x * ((134217728 / 9395241 : ℝ) : EReal) = Ideal.div x (Ideal.ofBits .f32 0x3D8F5C29#32) := by
  rw [ofBits_temp, Ideal.div_coe (by norm_num : (9395241 / 134217728 : ℝ) ≠ 0)]
  congr 2
  norm_num

end Cert.Consts

end
-- ==== Proof.Bridge.lean ====
/-
  The two programs compute one function of the four arguments, at the exact values.

  Both find the last nonzero label by the same integer operations, so they pick the same sample b (the start index read
  signed and clamped into the batch). The kernel slices row b of the features and the mask row of b's wrapped, clamped
  label and runs the per-sample loss on them; the reference runs the per-sample loss on every row and slices entry b.
  The kernel's scaling by the named reciprocal is the reference's division by the temperature; the kernel's mask
  "0/1 float > 1/2" is the reference's bit; the kernel's float sum of the 0/1 mask is the reference's integer count
  converted. So the two per-sample losses are equal, and so are the results after the common last steps (divide by
  the batch size, select against zero by "some label is nonzero").
-/
import proofs.«404133_j52647709114635_2_alg».proof.Proof.KIRead
import proofs.«404133_j52647709114635_2_alg».proof.Proof.KIRow
import proofs.«404133_j52647709114635_2_alg».proof.Proof.RefRow
import proofs.«404133_j52647709114635_2_alg».proof.Proof.LibCountRow
import proofs.«404133_j52647709114635_2_alg».proof.Proof.Consts

noncomputable section

namespace Cert.Bridge

open Idealize.ShloMosaic Idealize.ShloMosaic.ValueIdx Cert.Lib
open Cert.KernelIdeal.Val Cert.KernelIdeal.Rd Cert.ReferenceIdeal.RefRun Cert.ReferenceIdeal.RefRow
open scoped BigOperators

section Generic
variable {F : FTy → Type} [FloatOps F]

/-- Both programs test "some label is nonzero" by the same operations. -/
theorem any_eq (lab : IVec ⟨1, ![65536]⟩ 32) : sAny (F := F) lab = val_v29 (F := F) lab := rfl

/-- Both programs compute the start index by the same operations. -/
theorem idx_eq (lab : IVec ⟨1, ![65536]⟩ 32) : sIdx (F := F) lab = val_v32 (F := F) lab := rfl

end Generic

variable (lab : IVec ⟨1, ![65536]⟩ 32) (mot : FVec Ideal ⟨2, ![65536, 1024]⟩ .f32) (au : FVec Ideal ⟨2, ![64, 1024]⟩ .f32)
  (ex : IVec ⟨2, ![8, 64]⟩ 32)

/-- The label the kernel wraps is the sample's, so its wrapped label is the reference's wrapped label of the sample. -/
theorem wrap_eq (j : Cert.KernelIdeal.S_.Idx) : sWrap (F := Ideal) lab j = val_v7 (F := Ideal) lab (ix1 (samp lab)) := by
  show Scalar.select (IntOp.cmpi .slt (sLabel (F := Ideal) lab j) 0#32) (IntOp.addi (sLabel (F := Ideal) lab j) 8#32)
      (sLabel (F := Ideal) lab j) = _
  rw [label_apply]
  rfl

/-- The reference's mask bit of the sample at a is the kernel's bit. -/
theorem bit_eq (a : Fin 64) :
    val_v11 (F := Ideal) lab ex (ix2 (samp lab) a) = IntOp.cmpi .ne (ex (ix2 (maskRow lab) a)) 0#32 := by
  exact (bit_apply lab ex (samp lab) a).trans
    (congrArg (fun s : Int => IntOp.cmpi .ne (ex (ix2 (maskRowOf s) a)) 0#32)
      (congrArg BitVec.toInt (wrap_eq lab (Shape.Idx.first Cert.KernelIdeal.Gen.h_S_)).symm))

/-- The reference's count of the sample's mask bits, as a float, is the kernel's sum of the 0/1 mask row. -/
theorem count_eq :
    val_v18 (F := Ideal) lab ex (ix1 (samp lab)) = ∑ a : Fin 64, sMask (F := Ideal) lab ex (ix2 0 a) := by
  unfold val_v18 val_v17
  refine (sitofp_count_row (by decide) (val_v11 (F := Ideal) lab ex) _ _ _ (samp lab) .f32).trans ?_
  exact Finset.sum_congr rfl fun a _ => by rw [bit_eq, mask_apply]

/-- THE PER-SAMPLE LOSSES AGREE: the kernel's payload at its entry is the reference's quotient at the sample. -/
theorem loss_eq :
    Cert.KernelIdeal.Gen.k0_pay1 (F := Ideal) (sRow (F := Ideal) lab mot) (sTab (F := Ideal) au) (sMask (F := Ideal) lab ex) (ix2 0 0)
      = val_v23 (F := Ideal) lab mot au ex (ix1 (samp lab)) := by
  rw [Cert.KernelIdeal.Row.pay_apply, perSample_apply, count_eq]
  refine congrArg₂ (fun d p => Cert.Spec.rowLoss d p (∑ a : Fin 64, sMask (F := Ideal) lab ex (ix2 0 a)))
    (funext fun a => ?_) (funext fun a => ?_)
  · rw [Cert.Consts.scale_eq]
    refine congrArg (fun z => Ideal.div z (Ideal.ofBits .f32 0x3D8F5C29#32)) (Finset.sum_congr rfl fun k _ => ?_)
    rw [row_apply, tab_apply]
  · rw [mask_apply, Cert.Consts.cmp_bit, bit_eq]

/-- The reference's sliced entry is its quotient at the sample. -/
theorem ref_entry (j : Cert.ReferenceIdeal.S_.Idx) :
    val_v34 (F := Ideal) lab mot au ex j = val_v23 (F := Ideal) lab mot au ex (ix1 (samp lab)) := by
  unfold val_v34
  refine (shapeCast_1_scalar_apply _ _ j).trans ?_
  refine (dynamicSlice_entry_apply (N := 65536) (by decide) (val_v23 (F := Ideal) lab mot au ex)
    (fun k => ((![val_v32 (F := Ideal) lab] : Fin 1 → IVec ⟨0, ![]⟩ 32) k (Shape.Idx.first Cert.ReferenceIdeal.Gen.h_S_)).toInt)
    Cert.ReferenceIdeal.Gen.sliceFits_S65536_S1 0).trans ?_
  exact congrArg (fun s : Int => val_v23 (F := Ideal) lab mot au ex (ix1 (sampOf s)))
    (show BitVec.toInt ((![val_v32 (F := Ideal) lab] : Fin 1 → IVec ⟨0, ![]⟩ 32) 0 (Shape.Idx.first Cert.ReferenceIdeal.Gen.h_S_))
        = BitVec.toInt (sIdx (F := Ideal) lab (Shape.Idx.first Cert.KernelIdeal.Gen.h_S_)) by
      rw [idx_eq, Matrix.cons_val_zero])

/-- The common last steps, read at the scalar's index: a select between a quotient by the batch size and zero. -/
theorem out_apply (c : IVec ⟨0, ![]⟩ 1) (x : FVec Ideal ⟨0, ![]⟩ .f32) (j : (⟨0, ![]⟩ : Shape).Idx) :
    select c (Host.divf (F := Ideal) x (constant ⟨0, ![]⟩ .f32 0x47800000#32)) (id (constant (F := Ideal) ⟨0, ![]⟩ .f32 0x00000000#32)) j
      = Scalar.select (c j) (Ideal.div (x j) (Ideal.ofBits .f32 0x47800000#32)) (Ideal.ofBits .f32 0x00000000#32) := rfl

/-- THE RESULTS AGREE: the kernel's result from a scalar block holding the payload is the reference's result. -/
theorem result_eq (blk : FVec Ideal ⟨2, ![1, 1]⟩ .f32)
    (hblk : blk (ix2 0 0) = Cert.KernelIdeal.Gen.k0_pay1 (F := Ideal) (sRow (F := Ideal) lab mot) (sTab (F := Ideal) au) (sMask (F := Ideal) lab ex) (ix2 0 0)) :
    sOut (F := Ideal) lab blk = result (F := Ideal) lab mot au ex := by
  funext j
  have hK : sOut (F := Ideal) lab blk j = Scalar.select (sAny (F := Ideal) lab j)
      (Ideal.div (shapeCast ⟨0, ![]⟩ blk Cert.KernelIdeal.Gen.shapeCasts_S1x1_S_ j) (Ideal.ofBits .f32 0x47800000#32))
      (Ideal.ofBits .f32 0x00000000#32) := by
    unfold sOut; exact out_apply _ _ j
  have hR : result (F := Ideal) lab mot au ex j = Scalar.select (val_v29 (F := Ideal) lab j)
      (Ideal.div (val_v34 (F := Ideal) lab mot au ex j) (Ideal.ofBits .f32 0x47800000#32))
      (Ideal.ofBits .f32 0x00000000#32) := by
    unfold result val_v35; exact out_apply _ _ j
  rw [hK, hR, any_eq, shapeCast_11_scalar_apply, hblk, loss_eq, ref_entry]

end Cert.Bridge

end
-- ==== Proof.lean ====
/- The certificate: a single-row contrastive loss kernel against its whole-batch reference.

   The reference computes a per-sample loss for all 65536 samples (the sample's feature row against the 64 table
   rows, divided by the temperature; the positives' sum minus the count times the log of the negatives' exponential
   sum, over the count) and returns the entry of the last sample whose label is nonzero, divided by the batch size
   (zero if every label is zero). The kernel finds that sample first, slices its feature row and its label's mask
   row, and runs the per-sample loss once, inside one kernel launch on a one-point grid, multiplying by a folded
   reciprocal of the temperature.

   The three frames: the two kernel programs run through the host operations before the launch, the launch (the body
   loads three whole blocks and stores one) and the host operations after it, writing no argument; the reference is a
   list of host operations. The idealized kernel names its folded reciprocal as the exact reciprocal of the reference's
   temperature word, which is the one rewrite to preserve. At the exact values the two results are one function of
   the arguments: the same sample is picked, the scaling is the division, the 0/1 mask compared with one half is the
   bit, and the float sum of the mask is the integer count. -/
import proofs.«404133_j52647709114635_2_alg».proof.Defs
import proofs.«404133_j52647709114635_2_alg».proof.Proof.Gen.Kernel
import proofs.«404133_j52647709114635_2_alg».proof.Proof.Gen.KernelIdeal
import proofs.«404133_j52647709114635_2_alg».proof.Proof.Gen.ReferenceIdeal
import proofs.«404133_j52647709114635_2_alg».proof.Proof.Gen.Pre_finite_inputs
import proofs.«404133_j52647709114635_2_alg».proof.Proof.KFrame
import proofs.«404133_j52647709114635_2_alg».proof.Proof.KIFrame
import proofs.«404133_j52647709114635_2_alg».proof.Proof.KIRun
import proofs.«404133_j52647709114635_2_alg».proof.Proof.RefRun
import proofs.«404133_j52647709114635_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Fr.frame m ρ

/-- The idealized kernel program runs and keeps its arguments. -/
theorem frame_ki : Cert.frame_KernelIdeal := fun m ρ _ => Cert.KernelIdeal.Fr.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The one rewrite of the idealization: the folded reciprocal is named the exact reciprocal of the temperature's word. -/
theorem preserves : Cert.preserves_Kernel_KernelIdeal :=
  IdealRules.named_const.statement Cert.KernelIdeal.κ "inv_temp" .f32 0x41649249#32 ((134217728 / 9395241 : ℝ) : EReal) rfl

/-- At the exact values both programs end with the same scalar: the kernel's run names its result through the launch's
    output entry, the reference's run names its own, and the two are one function of arguments that agree. -/
theorem algebraic : Cert.algebraic_KernelIdeal_ReferenceIdeal := by
  intro m ρ m' ρ' _ hagree
  refine ⟨_, Cert.KernelIdeal.Val.run_val (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact (Cert.Bridge.result_eq _ _ _ _ _ (Cert.KernelIdeal.Val.arr3_val (F := Ideal) m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
